-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S16384x128 .f32) (main_arg1 : FVec F S16384x16384 .f32) (main_arg2 : FVec F S128x128 .f32) (main_arg3 : FVec F S128x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S512x4096 : Shape := ⟨2, ![512, 4096]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128x128, .f32⟩
  | .hbm, ⟨4, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S4096x128, .f32⟩
  | .local _ .vmem, ⟨4, _⟩ => ⟨S512x128, .f32⟩
  | .local _ .vmem, ⟨5, _⟩ => ⟨S512x128, .f32⟩
  | .local _ .vmem, ⟨6, _⟩ => ⟨S128x128, .f32⟩
  | .local _ .vmem, ⟨7, _⟩ => ⟨S128x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  reduces_S512x4096_S512 : S512x4096.Reduces [1] S512
  shapeCasts_S512_S512x1 : S512.ShapeCasts S512x1
  shapeCasts_S512x1_S512x1 : S512x1.ShapeCasts S512x1
  broadcasts_S512x1_S512x128 : S512x1.Broadcasts S512x128
  inb_S128x128_S128x128_0_0 : ∀ a, (![0, 0] : Fin 2 → Nat) a + S128x128.size a ≤ S128x128.size a
  h_S128x128 : 0 < S128x128.numel
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x16384.size a
  hwx0_0 : ∀ i : grid0.Coords, EltTy.bits .f32 = 32 ∨ (Rect.block (s := S16384x16384) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x128.size a
  hwx0_2 : ∀ i : grid0.Coords, EltTy.bits .f32 = 32 ∨ (Rect.block (s := S16384x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S16384x128.size a
  hwx0_5 : ∀ i : grid0.Coords, EltTy.bits .f32 = 32 ∨ (Rect.block (s := S16384x128) S512x128.size (cc0_transform_5 i) (hinb0_5 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S_ : Shape := ⟨0, ![]⟩
abbrev S16384 : Shape := ⟨1, ![16384]⟩
abbrev S16384x1 : Shape := ⟨2, ![16384, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.FrB.Base.lean ====
/-
  The kernel's region seen from one core: what the launch hands it and what the body's conditionals are.

  @main is the pallas_call alone, so the contents the region finds in every unscoped buffer are the launch memory's.
  The grid has 32 row tiles by 4 column tiles, point t = 4·i + k.  Window 0 stages the tile (i, k) of the
  adjacency, window 1 the k-th block of 4096 rows of the features, window 2 the i-th block of 512 rows of the
  SAME feature array, windows 3 and 4 the two weight matrices whole, window 5 the i-th block of 512 rows of the
  result.  The body's first conditional (reset the two accumulators) holds where k = 0, its second (finish and
  store the result block) where k = 3; the result's block is written back exactly at those last points and its
  buffer is idle everywhere else.
-/
import proofs.«127362_j72773925863488_1_alg».proof.Proof.Gen.Kernel.Launch
import proofs.«127362_j72773925863488_1_alg».proof.Proof.Gen.Kernel.Skeleton
import proofs.«127362_j72773925863488_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffers when the region is entered: the launch memory (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region and nothing else. -/
theorem hmain (𝒱₀ : Variants) : Pipeline.HMainK (Ix := Unit) (Name := ℕ) (U := UR sig nD τ) (Lvl := ℕ) cfgs 0 defs₀ 𝒱₀ m (main (F := F)) (V m)
      (fun _ => Pipeline.chain []) :=
  Pipeline.hmain_around cfgs 0 defs₀ 𝒱₀ m main [] [] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where the
    pipeline does not fetch, the block index has not moved since the point before and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's conditionals, decided over the grid -/

/-- The reset's condition: the column-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The finish's condition: the column-tile coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last column tile the body stores nothing into the result's buffer, and the pipeline does not write it back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last column tile it stores the block. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S512x128 .f32 := Memref.whole cc0_scratch0
abbrev scM0_1 : Memref sig .tc .vmem S512x128 .f32 := Memref.whole cc0_scratch1

/-- The core's scoped buffers that are no staging buffer are the two accumulators, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Kernel.Fr

end
-- ==== Proof.FrB.RunA.lean ====
/-
  The body at the first column tile of a row tile: the reset is taken, the finish is not.  Both accumulators are
  stored whole with zeros before anything reads them, so whatever they held does not matter; then the product of
  the adjacency tile and the feature block is added to the first and the tile's row sums to the second.
-/
import proofs.«127362_j72773925863488_1_alg».proof.Proof.FrB.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first case's run: the two input buffers at their contents and the accumulators at anything go in; the
    inputs come back as they were and each accumulator with its two stores written. -/
noncomputable def kernelRun0_A (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i)
    (x0 : Vec F S512x4096 .f32) (x1 : Vec F S4096x128 .f32) :
    Σ' (LS0 : List (View.Piece (Elt F) S512x128 .f32)), { LS1 : List (View.Piece (Elt F) S512x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Fr

end
-- ==== Proof.FrB.RunB.lean ====
/-
  The body between the first and the last column tile: neither conditional is taken.  It loads the adjacency tile
  and the feature block, adds their product to the first accumulator and the tile's row sums (spread along the
  lanes) to the second, and touches nothing else.  The pieces each accumulator ends with are found by running the body.
-/
import proofs.«127362_j72773925863488_1_alg».proof.Proof.FrB.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The middle case's run: the two input buffers at their contents and the accumulators at what the point before
    left go in; the inputs come back as they were and each accumulator with its one store written. -/
noncomputable def kernelRun0_B (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i)
    (x0 : Vec F S512x4096 .f32) (x1 : Vec F S4096x128 .f32) (xs0 : Vec F S512x128 .f32) (xs1 : Vec F S512x128 .f32) :
    Σ' (LS0 : List (View.Piece (Elt F) S512x128 .f32)), { LS1 : List (View.Piece (Elt F) S512x128 .f32) //
      ∀ (E : Set ℕ) (K : PUnit → sProp 𝕄),
        iprop(owns (c : Thread nD τ) arg2 fullShare x0 ∗ owns (c : Thread nD τ) arg3 fullShare x1
            ∗ owns (c : Thread nD τ) arg8 fullShare xs0 ∗ owns (c : Thread nD τ) arg9 fullShare xs1
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Fr

end
-- ==== Proof.FrB.RunC.lean ====
/-
  The body at the last column tile of a row tile: the reset is not taken, the finish is.  After the two
  accumulations it reads both accumulators back, clamps the degree from below by one, divides, and stores into the
  result's buffer the sum of the self projection (the row tile's own features times the first weight matrix) and
  the neighbour projection (the averaged aggregate times the second).
-/
import proofs.«127362_j72773925863488_1_alg».proof.Proof.FrB.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The last case's run: the five input buffers at their contents, the result's buffer at anything and the
    accumulators at what the point before left go in; the inputs come back as they were, the result's buffer with
    its one store written, each accumulator with its one store written. -/
noncomputable def kernelRun0_C (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128x128 .f32)
    (xs0 : Vec F S512x128 .f32) (xs1 : Vec F S512x128 .f32) :
    Σ' (L5 : List (View.Piece (Elt F) S512x128 .f32)) (LS0 : List (View.Piece (Elt F) S512x128 .f32)), { LS1 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Fr

end
-- ==== Proof.FrB.Pieces.lean ====
/-
  What each case's stores leave in the accumulators and in the result's buffer, read back: every store of the body
  is a whole-buffer store, so the last one into a buffer decides its contents, and a load after a store reads the
  stored value.  The first accumulator ends at the old contents (zero after a reset) plus the tile product, the
  second at the old contents (zero after a reset) plus the tile's row sums, the result's buffer at the finished block
  computed from the two accumulators just updated.
-/
import proofs.«127362_j72773925863488_1_alg».proof.Proof.FrB.RunA
import proofs.«127362_j72773925863488_1_alg».proof.Proof.FrB.RunB
import proofs.«127362_j72773925863488_1_alg».proof.Proof.FrB.RunC
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of every access of the body: the buffer's origin. -/
theorem hz2 : (![0, 0] : Fin 2 → ℕ) = fun _ => 0 := by
  funext a; fin_cases a <;> rfl

/-- The stores case A makes into s0 cover it (one whole-buffer store is among them). -/
theorem cover0_A_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 : Vec F S512x4096 .f32) (x1 : Vec F S4096x128 .f32) (y : S512x128.Idx) : ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S512x128.size (by sl_kernel_rfl) y

/-- and what they leave, read back through the memref whatever it held before, is the body's stored value. -/
theorem read0_A_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 : Vec F S512x4096 .f32) (x1 : Vec F S4096x128 .f32) (f : arg8.view.ty.Contents (Elt F)) :
    arg8.view.read (Elt F) (arg8.view.writes (Elt F) f (kernelRun0_A c i arg2 harg2 arg3 harg3 arg4 harg4 arg5 harg5 arg6 harg6 arg7 harg7 arg8 harg8 arg9 harg9 hc0 hc1 x0 x1).1) = k0_pay3 x0 x1 (k0_pay1 (F := F)) := by
  rw [View.read_writes_eq_canon _ _ _ (cover0_A_s0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case A makes into s1 cover it (one whole-buffer store is among them). -/
theorem cover0_A_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 : Vec F S512x4096 .f32) (x1 : Vec F S4096x128 .f32) (y : S512x128.Idx) : ∃ pc ∈ (kernelRun0_A c i arg2 harg2 arg3 harg3 arg4 harg4 arg5 harg5 arg6 harg6 arg7 harg7 arg8 harg8 arg9 harg9 hc0 hc1 x0 x1).2.1, y ∈ pc.1.set :=
  View.cover_of_tiledL (kernelRun0_A c i arg2 harg2 arg3 harg3 arg4 harg4 arg5 harg5 arg6 harg6 arg7 harg7 arg8 harg8 arg9 harg9 hc0 hc1 x0 x1).2.1 S512x128.size (by sl_kernel_rfl) y

/-- and what they leave, read back through the memref whatever it held before, is the body's stored value. -/
theorem read0_A_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 : Vec F S512x4096 .f32) (x1 : Vec F S4096x128 .f32) (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 hc0 hc1 x0 x1).2.1) = k0_pay4 x0 (k0_pay2 (F := F)) := by
  rw [View.read_writes_eq_canon _ _ _ (cover0_A_s1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case B makes into s0 cover it (one whole-buffer store is among them). -/
theorem cover0_B_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i) (x0 : Vec F S512x4096 .f32) (x1 : Vec F S4096x128 .f32) (xs0 : Vec F S512x128 .f32) (xs1 : Vec F S512x128 .f32) (y : S512x128.Idx) : ∃ pc ∈ (kernelRun0_B c i arg2 harg2 arg3 harg3 arg4 harg4 arg5 harg5 arg6 harg6 arg7 harg7 arg8 harg8 arg9 harg9 hc0 hc1 x0 x1 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).1 S512x128.size (by sl_kernel_rfl) y

/-- and what they leave, read back through the memref whatever it held before, is the body's stored value. -/
theorem read0_B_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i) (x0 : Vec F S512x4096 .f32) (x1 : Vec F S4096x128 .f32) (xs0 : Vec F S512x128 .f32) (xs1 : Vec F S512x128 .f32) (f : arg8.view.ty.Contents (Elt F)) :
    arg8.view.read (Elt F) (arg8.view.writes (Elt F) f (kernelRun0_B c i arg2 harg2 arg3 harg3 arg4 harg4 arg5 harg5 arg6 harg6 arg7 harg7 arg8 harg8 arg9 harg9 hc0 hc1 x0 x1 xs0 xs1).1) = k0_pay3 x0 x1 xs0 := by
  rw [View.read_writes_eq_canon _ _ _ (cover0_B_s0 c i arg2 harg2 arg3 harg3 arg4 harg4 arg5 harg5 arg6 harg6 arg7 harg7 arg8 harg8 arg9 harg9 hc0 hc1 x0 x1 xs0 xs1)]
  unfold kernelRun0_B
  dsimp only
  sl_unfold_words
  rw [View.canon_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case B makes into s1 cover it (one whole-buffer store is among them). -/
theorem cover0_B_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i) (x0 : Vec F S512x4096 .f32) (x1 : Vec F S4096x128 .f32) (xs0 : Vec F S512x128 .f32) (xs1 : Vec F S512x128 .f32) (y : S512x128.Idx) : ∃ pc ∈ (kernelRun0_B c i arg2 harg2 arg3 harg3 arg4 harg4 arg5 harg5 arg6 harg6 arg7 harg7 arg8 harg8 arg9 harg9 hc0 hc1 x0 x1 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).2.1 S512x128.size (by sl_kernel_rfl) y

/-- and what they leave, read back through the memref whatever it held before, is the body's stored value. -/
theorem read0_B_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i) (x0 : Vec F S512x4096 .f32) (x1 : Vec F S4096x128 .f32) (xs0 : Vec F S512x128 .f32) (xs1 : Vec F S512x128 .f32) (f : arg9.view.ty.Contents (Elt F)) :
    arg9.view.read (Elt F) (arg9.view.writes (Elt F) f (kernelRun0_B c i arg2 harg2 arg3 harg3 arg4 harg4 arg5 harg5 arg6 harg6 arg7 harg7 arg8 harg8 arg9 harg9 hc0 hc1 x0 x1 xs0 xs1).2.1) = k0_pay4 x0 xs1 := by
  rw [View.read_writes_eq_canon _ _ _ (cover0_B_s1 c i arg2 harg2 arg3 harg3 arg4 harg4 arg5 harg5 arg6 harg6 arg7 harg7 arg8 harg8 arg9 harg9 hc0 hc1 x0 x1 xs0 xs1)]
  unfold kernelRun0_B
  dsimp only
  sl_unfold_words
  rw [View.canon_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case C makes into s0 cover it (one whole-buffer store is among them). -/
theorem cover0_C_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (y : S512x128.Idx) : ∃ pc ∈ (kernelRun0_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.1 S512x128.size (by sl_kernel_rfl) y

/-- and what they leave, read back through the memref whatever it held before, is the body's stored value. -/
theorem read0_C_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 hc0 hc1 x0 x1 x2 x3 x4 xs0 xs1).2.1) = k0_pay3 x0 x1 xs0 := by
  rw [View.read_writes_eq_canon _ _ _ (cover0_C_s0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case C makes into s1 cover it (one whole-buffer store is among them). -/
theorem cover0_C_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (y : S512x128.Idx) : ∃ pc ∈ (kernelRun0_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.2.1 S512x128.size (by sl_kernel_rfl) y

/-- and what they leave, read back through the memref whatever it held before, is the body's stored value. -/
theorem read0_C_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 hc0 hc1 x0 x1 x2 x3 x4 xs0 xs1).2.2.1) = k0_pay4 x0 xs1 := by
  rw [View.read_writes_eq_canon _ _ _ (cover0_C_s1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case C makes into o5 cover it (one whole-buffer store is among them). -/
theorem cover0_C_o5 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (y : S512x128.Idx) : ∃ pc ∈ (kernelRun0_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).1 S512x128.size (by sl_kernel_rfl) y

/-- and what they leave, read back through the memref whatever it held before, is the body's stored value. -/
theorem read0_C_o5 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 hc0 hc1 x0 x1 x2 x3 x4 xs0 xs1).1) = k0_pay5 (k0_pay4 x0 xs1) (k0_pay3 x0 x1 xs0) x2 x3 x4 := by
  rw [View.read_writes_eq_canon _ _ _ (cover0_C_o5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

end Cert.Kernel.Fr

end
-- ==== Proof.FrB.Data.lean ====
/-
  What the kernel's buffers hold from point to point, stated through the body's own stored values.

  At point t = 4·i + k the first accumulator holds the running product sum of row tile i over the column tiles
  0 … k, the second the running row sums of the adjacency over the same tiles (spread along the lanes).  Both start
  again from zero wherever k = 0.  At k = 3 the body stores the finished block: the self projection plus the
  neighbour projection of the aggregate divided by the clamped degree.  The feature array reaches the kernel
  through two windows; each holds one half of the array's share.
-/
import proofs.«127362_j72773925863488_1_alg».proof.Proof.FrB.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The input blocks at their literal types -/

/-- The adjacency tile of point `t`. -/
abbrev blk0 (c : Dev nD) (t : Fin cfg0.N) : Vec F S512x4096 .f32 := iblk m c 0 t
/-- The feature rows of the point's column tile. -/
abbrev blk1 (c : Dev nD) (t : Fin cfg0.N) : Vec F S4096x128 .f32 := iblk m c 1 t
/-- The feature rows of the point's row tile. -/
abbrev blk2 (c : Dev nD) (t : Fin cfg0.N) : Vec F S512x128 .f32 := iblk m c 2 t
/-- The two weight matrices. -/
abbrev blk3 (c : Dev nD) (t : Fin cfg0.N) : Vec F S128x128 .f32 := iblk m c 3 t
abbrev blk4 (c : Dev nD) (t : Fin cfg0.N) : Vec F S128x128 .f32 := iblk m c 4 t

/-! ## The accumulators after each point -/

/-- The two accumulators after the body at position `n`: from zero where the column tile is the first, else from
    what the point before left. -/
def scr (c : Dev nD) : (n : ℕ) → n < cfg0.N → Vec F S512x128 .f32 × Vec F S512x128 .f32
  | 0, hn => (k0_pay3 (blk0 m c ⟨0, hn⟩) (blk1 m c ⟨0, hn⟩) (k0_pay1 (F := F)), k0_pay4 (blk0 m c ⟨0, hn⟩) (k0_pay2 (F := F)))
  | n + 1, hn =>
    if (n + 1) % 4 = 0 then
      (k0_pay3 (blk0 m c ⟨n + 1, hn⟩) (blk1 m c ⟨n + 1, hn⟩) (k0_pay1 (F := F)), k0_pay4 (blk0 m c ⟨n + 1, hn⟩) (k0_pay2 (F := F)))
    else
      (k0_pay3 (blk0 m c ⟨n + 1, hn⟩) (blk1 m c ⟨n + 1, hn⟩) (scr c n (Nat.lt_of_succ_lt hn)).1,
       k0_pay4 (blk0 m c ⟨n + 1, hn⟩) (scr c n (Nat.lt_of_succ_lt hn)).2)

/-- At a first column tile: the accumulation from zero. -/
theorem scr_first (c : Dev nD) (t : Fin cfg0.N) (h0 : t.val % 4 = 0) :
    scr m c t.val t.isLt = (k0_pay3 (blk0 m c t) (blk1 m c t) (k0_pay1 (F := F)), k0_pay4 (blk0 m c t) (k0_pay2 (F := F))) := by
  obtain ⟨n, hn⟩ := t
  cases n with
  | zero => rfl
  | succ n => exact if_pos h0

/-- At a later column tile: the accumulation onto what the point before left. -/
theorem scr_next (c : Dev nD) (t : Fin cfg0.N) (h0 : ¬t.val % 4 = 0) :
    scr m c t.val t.isLt = (k0_pay3 (blk0 m c t) (blk1 m c t) (scr m c (t.val - 1) (Nat.lt_of_le_of_lt (Nat.sub_le _ _) t.isLt)).1,
      k0_pay4 (blk0 m c t) (scr m c (t.val - 1) (Nat.lt_of_le_of_lt (Nat.sub_le _ _) t.isLt)).2) := by
  obtain ⟨n, hn⟩ := t
  cases n with
  | zero => exact absurd (Nat.zero_mod _) h0
  | succ n => exact if_neg h0

/-- The block the body stores into the result's buffer at point `t` (stored at the last column tiles only). -/
def outv (c : Dev nD) (t : Fin cfg0.N) : Vec F S512x128 .f32 :=
  k0_pay5 (scr m c t.val t.isLt).2 (scr m c t.val t.isLt).1 (blk2 m c t) (blk3 m c t) (blk4 m c t)

/-! ## The region's invariant and proof data -/

/-- Before the first point the accumulators hold anything; after point `n` they hold `scr … n`. -/
def PhiS (c : Dev nD) : (n : ℕ) → n ≤ cfg0.N → sProp 𝕄
  | 0, _ => Pipeline.scopedRest spec0 c
  | n + 1, hn => iprop(owns (c : Thread nD τ) scM0_0 fullShare ((scr m c n hn).1) ∗ owns (c : Thread nD τ) scM0_1 fullShare ((scr m c n hn).2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0_0 fullShare ((scr m c n hn).1) ∗ owns (c : Thread nD τ) scM0_1 fullShare ((scr m c n hn).2)) := rfl

theorem PhiS_pos (c : Dev nD) (n : ℕ) (h : n ≤ cfg0.N) (hz : n ≠ 0) :
    PhiS m c n h = iprop(owns (c : Thread nD τ) scM0_0 fullShare ((scr m c (n - 1) (by omega)).1) ∗ owns (c : Thread nD τ) scM0_1 fullShare ((scr m c (n - 1) (by omega)).2)) := by
  cases n with
  | zero => exact absurd rfl hz
  | succ n => rfl

/-- The proof data of the pipeline on core `c`: the arrays as the launch left them; each input's buffer at its
    block and the result's at `outv` after the body; the accumulators carried in the invariant; nothing owed; the
    feature array's share dealt in halves to the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outv m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Kernel.Fr

end
-- ==== Proof.FrB.Shares.lean ====
/-
  Dealing the arrays' shares.  The region's six windows sit on five distinct buffers: the feature array is behind
  two of them.  At entry its full share is cut in halves, one for each window; every other array goes to its one
  window whole.  Nothing writes an input, so at exit the two halves still hold the same contents and join back into
  the full share, and the result array is handed back at what the write-backs made of it.
-/
import proofs.«127362_j72773925863488_1_alg».proof.Proof.FrB.Data

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

open Classical in
/-- The core's buffers when the region is left: the result array at what the write-backs made of it, everything
    else as at entry. -/
def Vx (c : Dev nD) : Valuation τ sig (Elt F) :=
  Function.update (V0 m c) (Proc.devRef .tc main_v0) ((dats m 0 c).arrAt 5 cfg0.N)

theorem Vx_out (c : Dev nD) : Vx m c (Proc.devRef .tc main_v0) = (dats m 0 c).arrAt 5 cfg0.N := by
  unfold Vx; exact Function.update_self _ _ _

theorem Vx_in (c : Dev nD) (b : Ref sig .tc) (hb : b ≠ main_v0) : Vx m c (Proc.devRef .tc b) = V0 m c (Proc.devRef .tc b) := by
  unfold Vx; exact Function.update_of_ne (fun h => hb (Proc.devRef_injective _ h)) _ _

/-- The five buffers behind the six windows. -/
theorem arrRefs_eq : Finset.univ.image (Pipeline.arrRef spec0) = [main_arg1, main_arg0, main_arg2, main_arg3, main_v0].toFinset := by decide

theorem arrBufs_eq (c : Dev nD) (W : (b : Ref sig .tc) → Buf (Elt F) ((c.tc : Thread nD τ).loc b)) :
    (Pipeline.arrBufs spec0 c W : sProp 𝕄)
      = iprop((((c.tc : Thread nD τ).loc main_arg1) ↦{fullShare} W main_arg1) ∗ (((c.tc : Thread nD τ).loc main_arg0) ↦{fullShare} W main_arg0)
          ∗ (((c.tc : Thread nD τ).loc main_arg2) ↦{fullShare} W main_arg2) ∗ (((c.tc : Thread nD τ).loc main_arg3) ↦{fullShare} W main_arg3)
          ∗ (((c.tc : Thread nD τ).loc main_v0) ↦{fullShare} W main_v0)) := by
  unfold Pipeline.arrBufs
  exact Idealize.SL.BI.bigSep_eq_bigSepL_of_eq _ arrRefs_eq (by decide) _

/-- The windows' arrays at contents `G`, window by window at its share. -/
theorem arrays_eq (c : Dev nD) (G : (w : Fin cfg0.W) → Buf (Elt F) ((cfg0.win w).arr.view.loc (c.tc : Thread nD τ))) :
    ((dats m 0 c).arrays G : sProp 𝕄)
      = iprop((((c.tc : Thread nD τ).loc main_arg1) ↦{fullShare} G 0) ∗ (((c.tc : Thread nD τ).loc main_arg0) ↦{fullShare.left} G 1)
          ∗ (((c.tc : Thread nD τ).loc main_arg0) ↦{fullShare.right} G 2) ∗ (((c.tc : Thread nD τ).loc main_arg2) ↦{fullShare} G 3)
          ∗ (((c.tc : Thread nD τ).loc main_arg3) ↦{fullShare} G 4) ∗ (((c.tc : Thread nD τ).loc main_v0) ↦{fullShare} G 5)) := by
  unfold Dat.arrays
  rw [bigSep_W0]
  simp only [(arr_whole0 0).set_eq_univ, (arr_whole0 1).set_eq_univ, (arr_whole0 3).set_eq_univ, (arr_whole0 4).set_eq_univ, (arr_whole0 5).set_eq_univ]
  rfl

/-- At entry: the distinct buffers whole make the windows' arrays, the feature array's share cut in two. -/
theorem hsplit (c : Dev nD) :
    (Pipeline.arrBufs spec0 c (fun b => V0 m c (Proc.devRef .tc b)) : sProp 𝕄) ⊢ (dats m 0 c).arrays ((dats m 0 c).arrAt · 0) := by
  rw [arrBufs_eq, arrays_eq]
  iintro ⟨H1, H0, H2, H3, H4⟩
  ihave H0' := (Idealize.ShloMosaic.pointsTo_share (PosShare.mem_left_op_right fullShare)).1 $$ H0
  icases H0' with ⟨H0l, H0r⟩
  isplitl [H1]; · iexact H1
  isplitl [H0l]; · iexact H0l
  isplitl [H0r]; · iexact H0r
  isplitl [H2]; · iexact H2
  isplitl [H3]; · iexact H3
  iexact H4

/-- An input window's array is never written. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- At exit: the windows' arrays are the distinct buffers whole at the exit contents, and back. -/
theorem hmerge (c : Dev nD) :
    ((dats m 0 c).arrays ((dats m 0 c).arrAt · cfg0.N) : sProp 𝕄) ⊣⊢ Pipeline.arrBufs spec0 c (fun b => Vx m c (Proc.devRef .tc b)) := by
  rw [arrBufs_eq, arrays_eq]
  rw [arrAt_in m c 0 rfl, arrAt_in m c 1 rfl, arrAt_in m c 2 rfl, arrAt_in m c 3 rfl, arrAt_in m c 4 rfl]
  rw [Vx_out, Vx_in m c main_arg1 (by decide), Vx_in m c main_arg0 (by decide), Vx_in m c main_arg2 (by decide), Vx_in m c main_arg3 (by decide)]
  constructor
  · iintro ⟨H1, H0l, H0r, H2, H3, H4⟩
    ihave H0 := (Idealize.ShloMosaic.pointsTo_share (PosShare.mem_left_op_right fullShare)).2 $$ [H0l H0r]
    · isplitl [H0l]; · iexact H0l
      iexact H0r
    isplitl [H1]; · iexact H1
    isplitl [H0]; · iexact H0
    isplitl [H2]; · iexact H2
    isplitl [H3]; · iexact H3
    iexact H4
  · iintro ⟨H1, H0, H2, H3, H4⟩
    ihave H0' := (Idealize.ShloMosaic.pointsTo_share (PosShare.mem_left_op_right fullShare)).1 $$ H0
    icases H0' with ⟨H0l, H0r⟩
    isplitl [H1]; · iexact H1
    isplitl [H0l]; · iexact H0l
    isplitl [H0r]; · iexact H0r
    isplitl [H2]; · iexact H2
    isplitl [H3]; · iexact H3
    iexact H4

/-- Every unscoped buffer of the core is a window's array: nothing bypasses the region. -/
theorem restRefs_empty : Pipeline.restRefs sig spec0 = ∅ := by decide

end Cert.Kernel.Fr

end
-- ==== Proof.LibSharedLaunch.lean ====
/-
  A pipelined kernel whose input windows may SHARE an array — one array handed to the kernel through several
  `in_specs`, read at different blocks — inside an @main that runs host operations before the kernel's region and
  after it.

  The launch rule for distinct arrays holds every array at the full share.  When two windows stage one array the
  full share of the buffer behind it is dealt among them, and dealing it is the certificate's business: it says how
  the distinct buffers, each whole at the full share, make the proof data's arrays when the region is entered
  (`hsplit`), and that after the last point the proof data's arrays and the distinct buffers at the exit contents
  `Vx` are the same resource (`hmerge`).  Between the two the host operations after the region run within the
  core's unscoped buffers exactly as the ones before it do, writing no array; they leave every bypassing buffer at
  their composed value from the exit contents.  The kernel keeps no semaphore of its own and its invariant is
  entered from, and returns to, the core's scoped buffers that are no staging buffer, each at some contents.
  Generic in the program, the grid and the element values.
-/
import Idealize.ShloMosaic.Lib.Pipeline.FrameSuffix

noncomputable section

namespace Idealize.ShloMosaic.Pipeline

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

set_option backward.isDefEq.respectTransparency.types false in
/-- THE RUN AROUND THE REGION when windows may share arrays.  Every weakly fair execution terminates; each window's
    array ends at the proof data's `arrAt … N`, and every unscoped buffer that is no window's array at the value the
    operations after the region compute from the exit contents `Vx`. -/
theorem θ_run_shared_around
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Vx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hmerge : ∀ c, ((dats p c).arrays ((dats p c).arrAt · (cfg).N) : sProp 𝕄) ⊣⊢ arrBufs (cfg).spec c (fun b => Vx c (Proc.devRef .tc b)))
    (hrest : ∀ c, ∀ b ∈ restRefs sig (cfg).spec, Vx c (Proc.devRef .tc b) = V₀ c (Proc.devRef .tc b))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (Vx c) (Proc.devRef .tc b)) := by
  classical
  -- the exit contents' arrays are untouched by the operations after the region
  have harrx (c : Dev nD) : (arrBufs (cfg).spec c (fun b => StableHlo.after opss.flatten (Vx c) (Proc.devRef .tc b)) : sProp 𝕄)
      = arrBufs (cfg).spec c (fun b => Vx c (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have hrestx (c : Dev nD) : (unscopedRest (cfg).spec c (fun b => Vx c (Proc.devRef .tc b)) : sProp 𝕄)
      = unscopedRest (cfg).spec c (fun b => V₀ c (Proc.devRef .tc b)) := by
    unfold unscopedRest
    exact bigSep_congr fun b hb => by dsimp only; rw [hrest c b hb]
  exact θ_run_region_noSem_pf_tail (fun q => (cfgs q).toPCfg (Val := Val)) (fun q => (cfgs q).toPCfg_adm) dats () hinj p hw (PreFacts.none _) emb₁ defs₀ 𝒱₀ m g main
    (fun _ => chain (opss.map StableHlo.seq)) hbody hne harr hstage howed
    (u₀ := initOf (cells cfgs hinj) (launchToks cfgs hinj))
    (hu₀ := Entails.rfl)
    (V := fun c b => V₀ c (Proc.devRef .tc b)) (hmain := hmain)
    (hsplit := hsplit)
    (hpf := fun _ k => k.elim0)
    (X := fun _ => iprop(emp))
    (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (Vx c) (Proc.devRef .tc b)))
    (hX := fun c => by
      rw [unscopedRestP_none]
      iintro H; isplitr; · iempintro
      iexact H)
    (hin := fun c => by
      refine Entails.trans ?_ (hin c)
      change iprop(emp ∗ prefHeld _ c _ _ ∗ scopedRest (cfg).spec c) ⊢ (scopedRest (cfg).spec c : sProp 𝕄)
      iintro ⟨-, -, H⟩; iexact H)
    (hout := fun c => by
      refine Entails.trans (hout c) ?_
      change (scopedRest (cfg).spec c : sProp 𝕄) ⊢ iprop(emp ∗ scopedRest (cfg).spec c)
      iintro H; isplitr; · iempintro
      iexact H)
    (htail := fun c Q' => by
      have hheld (W : Valuation τ sig Val) : (StableHlo.held (c.tc : Thread nD τ) (ucRefs τ sig) W : sProp 𝕄)
          = iprop(arrBufs (cfg).spec c (fun b => W (Proc.devRef .tc b)) ∗ unscopedRest (cfg).spec c (fun b => W (Proc.devRef .tc b))) := by
        rw [← unscopedBufs_held (Ix := Unit) (Name := ℕ) (U := UR sig nD τ) (Lvl := ℕ) c W]
        exact unscopedBufs_split₀ cfgs p hw.arr_unscoped c _
      change iprop((iprop((dats p c).arrays ((dats p c).arrAt · (cfg).N) ∗ unscopedRest (cfg).spec c (fun b => StableHlo.after opss.flatten (Vx c) (Proc.devRef .tc b))) -∗ Q' ⟨⟩)
          ∗ boundary (c.tc : Thread nD τ) ∗ (dats p c).arrays ((dats p c).arrAt · (cfg).N) ∗ unscopedRest (cfg).spec c (fun b => V₀ c (Proc.devRef .tc b)))
        ⊢ wp frame (wpE 𝔻 𝕍 (c.tc : Thread nD τ) none) Set.univ (chain (opss.map StableHlo.seq)) Q'
      rw [← List.append_nil (opss.map StableHlo.seq)]
      iintro ⟨Hk, Hb, Ha, Hz⟩
      ihave Ha' := (hmerge c).1 $$ Ha
      iapply (wp_seqs_then (fun q => (cfgs q).toPCfg (Val := Val)) defs₀ 𝒱₀ c (ucRefs τ sig) [] opss
        (fun ops ho op h => sub_ucRefs op (hsub ops ho op h)) hfresh (Vx c)) $$ [Hb Ha' Hz]
      · isplitl [Hb]; · iexact Hb
        rw [hheld, hrestx]
        isplitl [Ha']; · iexact Ha'
        iexact Hz
      iintro Hb
      rw [chain_nil, wp_pure, hheld, harrx]
      imodintro
      iapply Hk
      icases Hb with ⟨-, Ha, Hz⟩
      isplitl [Ha]
      · iapply (hmerge c).2; iexact Ha
      iexact Hz)
    (QY := fun c s => ∀ b ∈ restRefs sig (cfg).spec, s.mem ((c.tc : Thread nD τ).loc b) = StableHlo.after opss.flatten (Vx c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (Vx c) (Proc.devRef .tc b)) s')
      isplitl [HU] <;> iassumption)
    (hQ := fun s h c => ⟨(h c).1, (h c).2.2⟩)

end Idealize.ShloMosaic.Pipeline

end
-- ==== Proof.FrB.Frame.lean ====
/-
  The region's body obligation and the run of @main.  At every grid point the body, called on the windows' current
  staging buffers and the two accumulators, takes the invariant before the point to the invariant after it: by cases
  on the column tile (first, middle, last), each case the body's run with the contents it leaves read back.  The
  launch then runs the whole pipeline: every execution terminates, the argument arrays are never written, and the
  result array ends at what the proof data's write-backs compute.
-/
import proofs.«127362_j72773925863488_1_alg».proof.Proof.FrB.Pieces
import proofs.«127362_j72773925863488_1_alg».proof.Proof.FrB.Data
import proofs.«127362_j72773925863488_1_alg».proof.Proof.FrB.Shares
import proofs.«127362_j72773925863488_1_alg».proof.Proof.LibSharedLaunch

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 128 := lt_of_lt_of_eq t.isLt (show cfg0.N = 128 from N_0)
  by_cases h0 : t.val % 4 = 0
  · have h1 : ¬t.val % 4 = 3 := by omega
    rw [Dat.leavesExact_idle (dats m 0 c) 5 t (idleAt0_5 t (fun h => h1 ((hcond0_1 t).mp h))) (noFlush0_5 t (fun h => h1 ((hcond0_1 t).mp h)))]
    rw [scr_first m c t h0]
    dsimp only
    by_cases hz : t.val = 0
    · rw [PhiS_castSucc m c t, PhiS_zero m c _ _ hz, scopedRest_eq]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t)).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1]
      · isplitl [HS0]
        · unfold owns; iexists _; isplitr
          swap; · iexact HS0
          ipureintro; exact read0_A_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t) es0
        · unfold owns; iexists _; isplitr
          swap; · iexact HS1
          ipureintro; exact read0_A_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t) es1
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t)).2.2 Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1]
      · isplitl [HS0]
        · unfold owns; iexists _; isplitr
          swap; · iexact HS0
          ipureintro; exact read0_A_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t) es0
        · unfold owns; iexists _; isplitr
          swap; · iexact HS1
          ipureintro; exact read0_A_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t) es1
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · rw [show (dats m 0 c).leavesExact 5 t = owns (c : Thread nD τ) (ms0_5 t) fullShare ((dats m 0 c).after 5 t) from by
        unfold Dat.leavesExact; rw [liveAt0_5 t ((hcond0_1 t).mpr h1)], after0_5]
      unfold outv
      rw [scr_next m c t h0]
      dsimp only
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1]
      · isplitl [HS0]
        · unfold owns; iexists _; isplitr
          swap; · iexact HS0
          ipureintro; exact read0_C_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) _ _ es0
        · unfold owns; iexists _; isplitr
          swap; · iexact HS1
          ipureintro; exact read0_C_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) _ _ es1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact read0_C_o5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) _ _ e5
    · rw [Dat.leavesExact_idle (dats m 0 c) 5 t (idleAt0_5 t (fun h => h1 ((hcond0_1 t).mp h))) (noFlush0_5 t (fun h => h1 ((hcond0_1 t).mp h)))]
      rw [scr_next m c t h0]
      dsimp only
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (blk0 m c t) (blk1 m c t) _ _).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1]
      · isplitl [HS0]
        · unfold owns; iexists _; isplitr
          swap; · iexact HS0
          ipureintro; exact read0_B_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (blk0 m c t) (blk1 m c t) _ _ es0
        · unfold owns; iexists _; isplitr
          swap; · iexact HS1
          ipureintro; exact read0_B_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (blk0 m c t) (blk1 m c t) _ _ es1
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- The accumulators at anything are the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

/-- After the last point the invariant gives them back, their contents forgotten. -/
theorem hout (c : Dev nD) : (dats m 0 c).Φ (Fin.last cfg0.N) ⊢ (Pipeline.scopedRest spec0 c : sProp 𝕄) := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), scopedRest_eq]
  iintro ⟨HS0, HS1⟩
  isplitl [HS0]
  · iexists _; iexact HS0
  iexists _; iexact HS1

/-! ## The run -/

set_option backward.isDefEq.respectTransparency.types false in
/-- Every weakly fair execution of @main terminates, with every window's array at what the proof data computes. -/
theorem run_main : θ_run defs (onTc (τ := τ) (main (F := F))) (s₀ m ρ) (fun r => ∀ c : Dev nD,
      (∀ w, r.2.mem (((cfgs 0).spec w).arr.view.loc (c.tc : Thread nD τ)) = (dats m 0 c).arrAt w (cfgs 0).N)
      ∧ ∀ b ∈ Pipeline.restRefs sig (cfgs 0).spec, r.2.mem ((c.tc : Thread nD τ).loc b) = StableHlo.after ([] : List (List (HloOp τ sig (Elt F)))).flatten (Vx m c) (Proc.devRef .tc b)) :=
  Pipeline.θ_run_shared_around cfgs (dats m) (0 : Fin 1) defs₀ Variants.none cellOf_inj winFacts₀0 block_pos0 arr_whole0 stage_whole0 m ρ main
    (hbody := fun c => (body_obligation m c).loose) (howed := fun _ _ => rfl) (V₀ := V0 m) (Vx := Vx m) (opss := [])
    (hsub := fun ops h => absurd h (List.not_mem_nil)) (hfresh := fun ops h => absurd h (List.not_mem_nil)) (hkeep := fun ops h => absurd h (List.not_mem_nil))
    (hmain := hmain m Variants.none) (hsplit := hsplit m) (hmerge := hmerge m)
    (hrest := fun c b hb => absurd hb (by rw [show Pipeline.restRefs sig (cfgs 0).spec = ∅ from restRefs_empty]; exact Finset.notMem_empty b))
    (hin := hin m) (hout := hout m)

/-- The same read at @main's buffers: the result array at the proof data's final contents, the four argument arrays
    as the launch left them. -/
theorem run_value : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1 5,
      ((h c).1 1).trans ((arrAt_in m c 1 rfl _).trans (V_main_arg0 m c)),
      ((h c).1 0).trans ((arrAt_in m c 0 rfl _).trans (V_main_arg1 m c)),
      ((h c).1 3).trans ((arrAt_in m c 3 rfl _).trans (V_main_arg2 m c)),
      ((h c).1 4).trans ((arrAt_in m c 4 rfl _).trans (V_main_arg3 m c))⟩) (run_main m ρ)

/-- THE FRAME: @main runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_value m ρ)

end Cert.Kernel.Fr

end
-- ==== Proof.FrI.Base.lean ====
/-
  The kernel's region seen from one core: what the launch hands it and what the body's conditionals are.

  @main is the pallas_call alone, so the contents the region finds in every unscoped buffer are the launch memory's.
  The grid has 32 row tiles by 4 column tiles, point t = 4·i + k.  Window 0 stages the tile (i, k) of the
  adjacency, window 1 the k-th block of 4096 rows of the features, window 2 the i-th block of 512 rows of the
  SAME feature array, windows 3 and 4 the two weight matrices whole, window 5 the i-th block of 512 rows of the
  result.  The body's first conditional (reset the two accumulators) holds where k = 0, its second (finish and
  store the result block) where k = 3; the result's block is written back exactly at those last points and its
  buffer is idle everywhere else.
-/
import proofs.«127362_j72773925863488_1_alg».proof.Proof.Gen.KernelIdeal.Launch
import proofs.«127362_j72773925863488_1_alg».proof.Proof.Gen.KernelIdeal.Skeleton
import proofs.«127362_j72773925863488_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffers when the region is entered: the launch memory (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region and nothing else. -/
theorem hmain (𝒱₀ : Variants) : Pipeline.HMainK (Ix := Unit) (Name := ℕ) (U := UR sig nD τ) (Lvl := ℕ) cfgs 0 defs₀ 𝒱₀ m (main (F := F)) (V m)
      (fun _ => Pipeline.chain []) :=
  Pipeline.hmain_around cfgs 0 defs₀ 𝒱₀ m main [] [] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where the
    pipeline does not fetch, the block index has not moved since the point before and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's conditionals, decided over the grid -/

/-- The reset's condition: the column-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The finish's condition: the column-tile coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last column tile the body stores nothing into the result's buffer, and the pipeline does not write it back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last column tile it stores the block. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S512x128 .f32 := Memref.whole cc0_scratch0
abbrev scM0_1 : Memref sig .tc .vmem S512x128 .f32 := Memref.whole cc0_scratch1

/-- The core's scoped buffers that are no staging buffer are the two accumulators, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Fr

end
-- ==== Proof.FrI.RunA.lean ====
/-
  The body at the first column tile of a row tile: the reset is taken, the finish is not.  Both accumulators are
  stored whole with zeros before anything reads them, so whatever they held does not matter; then the product of
  the adjacency tile and the feature block is added to the first and the tile's row sums to the second.
-/
import proofs.«127362_j72773925863488_1_alg».proof.Proof.FrI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first case's run: the two input buffers at their contents and the accumulators at anything go in; the
    inputs come back as they were and each accumulator with its two stores written. -/
noncomputable def kernelRun0_A (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i)
    (x0 : Vec F S512x4096 .f32) (x1 : Vec F S4096x128 .f32) :
    Σ' (LS0 : List (View.Piece (Elt F) S512x128 .f32)), { LS1 : List (View.Piece (Elt F) S512x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Fr

end
-- ==== Proof.FrI.RunB.lean ====
/-
  The body between the first and the last column tile: neither conditional is taken.  It loads the adjacency tile
  and the feature block, adds their product to the first accumulator and the tile's row sums (spread along the
  lanes) to the second, and touches nothing else.  The pieces each accumulator ends with are found by running the body.
-/
import proofs.«127362_j72773925863488_1_alg».proof.Proof.FrI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The middle case's run: the two input buffers at their contents and the accumulators at what the point before
    left go in; the inputs come back as they were and each accumulator with its one store written. -/
noncomputable def kernelRun0_B (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i)
    (x0 : Vec F S512x4096 .f32) (x1 : Vec F S4096x128 .f32) (xs0 : Vec F S512x128 .f32) (xs1 : Vec F S512x128 .f32) :
    Σ' (LS0 : List (View.Piece (Elt F) S512x128 .f32)), { LS1 : List (View.Piece (Elt F) S512x128 .f32) //
      ∀ (E : Set ℕ) (K : PUnit → sProp 𝕄),
        iprop(owns (c : Thread nD τ) arg2 fullShare x0 ∗ owns (c : Thread nD τ) arg3 fullShare x1
            ∗ owns (c : Thread nD τ) arg8 fullShare xs0 ∗ owns (c : Thread nD τ) arg9 fullShare xs1
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Fr

end
-- ==== Proof.FrI.RunC.lean ====
/-
  The body at the last column tile of a row tile: the reset is not taken, the finish is.  After the two
  accumulations it reads both accumulators back, clamps the degree from below by one, divides, and stores into the
  result's buffer the sum of the self projection (the row tile's own features times the first weight matrix) and
  the neighbour projection (the averaged aggregate times the second).
-/
import proofs.«127362_j72773925863488_1_alg».proof.Proof.FrI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The last case's run: the five input buffers at their contents, the result's buffer at anything and the
    accumulators at what the point before left go in; the inputs come back as they were, the result's buffer with
    its one store written, each accumulator with its one store written. -/
noncomputable def kernelRun0_C (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i)
    (x0 : Vec F S512x4096 .f32) (x1 : Vec F S4096x128 .f32) (x2 : Vec F S512x128 .f32) (x3 : Vec F S128x128 .f32) (x4 : Vec F S128x128 .f32)
    (xs0 : Vec F S512x128 .f32) (xs1 : Vec F S512x128 .f32) :
    Σ' (L5 : List (View.Piece (Elt F) S512x128 .f32)) (LS0 : List (View.Piece (Elt F) S512x128 .f32)), { LS1 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9) K } := by
  refine ⟨?_, ?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Fr

end
-- ==== Proof.FrI.Pieces.lean ====
/-
  What each case's stores leave in the accumulators and in the result's buffer, read back: every store of the body
  is a whole-buffer store, so the last one into a buffer decides its contents, and a load after a store reads the
  stored value.  The first accumulator ends at the old contents (zero after a reset) plus the tile product, the
  second at the old contents (zero after a reset) plus the tile's row sums, the result's buffer at the finished block
  computed from the two accumulators just updated.
-/
import proofs.«127362_j72773925863488_1_alg».proof.Proof.FrI.RunA
import proofs.«127362_j72773925863488_1_alg».proof.Proof.FrI.RunB
import proofs.«127362_j72773925863488_1_alg».proof.Proof.FrI.RunC
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of every access of the body: the buffer's origin. -/
theorem hz2 : (![0, 0] : Fin 2 → ℕ) = fun _ => 0 := by
  funext a; fin_cases a <;> rfl

/-- The stores case A makes into s0 cover it (one whole-buffer store is among them). -/
theorem cover0_A_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 : Vec F S512x4096 .f32) (x1 : Vec F S4096x128 .f32) (y : S512x128.Idx) : ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S512x128.size (by sl_kernel_rfl) y

/-- and what they leave, read back through the memref whatever it held before, is the body's stored value. -/
theorem read0_A_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 : Vec F S512x4096 .f32) (x1 : Vec F S4096x128 .f32) (f : arg8.view.ty.Contents (Elt F)) :
    arg8.view.read (Elt F) (arg8.view.writes (Elt F) f (kernelRun0_A c i arg2 harg2 arg3 harg3 arg4 harg4 arg5 harg5 arg6 harg6 arg7 harg7 arg8 harg8 arg9 harg9 hc0 hc1 x0 x1).1) = k0_pay3 x0 x1 (k0_pay1 (F := F)) := by
  rw [View.read_writes_eq_canon _ _ _ (cover0_A_s0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case A makes into s1 cover it (one whole-buffer store is among them). -/
theorem cover0_A_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 : Vec F S512x4096 .f32) (x1 : Vec F S4096x128 .f32) (y : S512x128.Idx) : ∃ pc ∈ (kernelRun0_A c i arg2 harg2 arg3 harg3 arg4 harg4 arg5 harg5 arg6 harg6 arg7 harg7 arg8 harg8 arg9 harg9 hc0 hc1 x0 x1).2.1, y ∈ pc.1.set :=
  View.cover_of_tiledL (kernelRun0_A c i arg2 harg2 arg3 harg3 arg4 harg4 arg5 harg5 arg6 harg6 arg7 harg7 arg8 harg8 arg9 harg9 hc0 hc1 x0 x1).2.1 S512x128.size (by sl_kernel_rfl) y

/-- and what they leave, read back through the memref whatever it held before, is the body's stored value. -/
theorem read0_A_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 : Vec F S512x4096 .f32) (x1 : Vec F S4096x128 .f32) (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 hc0 hc1 x0 x1).2.1) = k0_pay4 x0 (k0_pay2 (F := F)) := by
  rw [View.read_writes_eq_canon _ _ _ (cover0_A_s1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case B makes into s0 cover it (one whole-buffer store is among them). -/
theorem cover0_B_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i) (x0 : Vec F S512x4096 .f32) (x1 : Vec F S4096x128 .f32) (xs0 : Vec F S512x128 .f32) (xs1 : Vec F S512x128 .f32) (y : S512x128.Idx) : ∃ pc ∈ (kernelRun0_B c i arg2 harg2 arg3 harg3 arg4 harg4 arg5 harg5 arg6 harg6 arg7 harg7 arg8 harg8 arg9 harg9 hc0 hc1 x0 x1 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).1 S512x128.size (by sl_kernel_rfl) y

/-- and what they leave, read back through the memref whatever it held before, is the body's stored value. -/
theorem read0_B_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i) (x0 : Vec F S512x4096 .f32) (x1 : Vec F S4096x128 .f32) (xs0 : Vec F S512x128 .f32) (xs1 : Vec F S512x128 .f32) (f : arg8.view.ty.Contents (Elt F)) :
    arg8.view.read (Elt F) (arg8.view.writes (Elt F) f (kernelRun0_B c i arg2 harg2 arg3 harg3 arg4 harg4 arg5 harg5 arg6 harg6 arg7 harg7 arg8 harg8 arg9 harg9 hc0 hc1 x0 x1 xs0 xs1).1) = k0_pay3 x0 x1 xs0 := by
  rw [View.read_writes_eq_canon _ _ _ (cover0_B_s0 c i arg2 harg2 arg3 harg3 arg4 harg4 arg5 harg5 arg6 harg6 arg7 harg7 arg8 harg8 arg9 harg9 hc0 hc1 x0 x1 xs0 xs1)]
  unfold kernelRun0_B
  dsimp only
  sl_unfold_words
  rw [View.canon_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case B makes into s1 cover it (one whole-buffer store is among them). -/
theorem cover0_B_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i) (x0 : Vec F S512x4096 .f32) (x1 : Vec F S4096x128 .f32) (xs0 : Vec F S512x128 .f32) (xs1 : Vec F S512x128 .f32) (y : S512x128.Idx) : ∃ pc ∈ (kernelRun0_B c i arg2 harg2 arg3 harg3 arg4 harg4 arg5 harg5 arg6 harg6 arg7 harg7 arg8 harg8 arg9 harg9 hc0 hc1 x0 x1 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1).2.1 S512x128.size (by sl_kernel_rfl) y

/-- and what they leave, read back through the memref whatever it held before, is the body's stored value. -/
theorem read0_B_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i) (x0 : Vec F S512x4096 .f32) (x1 : Vec F S4096x128 .f32) (xs0 : Vec F S512x128 .f32) (xs1 : Vec F S512x128 .f32) (f : arg9.view.ty.Contents (Elt F)) :
    arg9.view.read (Elt F) (arg9.view.writes (Elt F) f (kernelRun0_B c i arg2 harg2 arg3 harg3 arg4 harg4 arg5 harg5 arg6 harg6 arg7 harg7 arg8 harg8 arg9 harg9 hc0 hc1 x0 x1 xs0 xs1).2.1) = k0_pay4 x0 xs1 := by
  rw [View.read_writes_eq_canon _ _ _ (cover0_B_s1 c i arg2 harg2 arg3 harg3 arg4 harg4 arg5 harg5 arg6 harg6 arg7 harg7 arg8 harg8 arg9 harg9 hc0 hc1 x0 x1 xs0 xs1)]
  unfold kernelRun0_B
  dsimp only
  sl_unfold_words
  rw [View.canon_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case C makes into s0 cover it (one whole-buffer store is among them). -/
theorem cover0_C_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (y : S512x128.Idx) : ∃ pc ∈ (kernelRun0_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.1 S512x128.size (by sl_kernel_rfl) y

/-- and what they leave, read back through the memref whatever it held before, is the body's stored value. -/
theorem read0_C_s0 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 hc0 hc1 x0 x1 x2 x3 x4 xs0 xs1).2.1) = k0_pay3 x0 x1 xs0 := by
  rw [View.read_writes_eq_canon _ _ _ (cover0_C_s0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case C makes into s1 cover it (one whole-buffer store is among them). -/
theorem cover0_C_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (y : S512x128.Idx) : ∃ pc ∈ (kernelRun0_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.2.1 S512x128.size (by sl_kernel_rfl) y

/-- and what they leave, read back through the memref whatever it held before, is the body's stored value. -/
theorem read0_C_s1 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 hc0 hc1 x0 x1 x2 x3 x4 xs0 xs1).2.2.1) = k0_pay4 x0 xs1 := by
  rw [View.read_writes_eq_canon _ _ _ (cover0_C_s1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

/-- The stores case C makes into o5 cover it (one whole-buffer store is among them). -/
theorem cover0_C_o5 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (y : S512x128.Idx) : ∃ pc ∈ (kernelRun0_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).1 S512x128.size (by sl_kernel_rfl) y

/-- and what they leave, read back through the memref whatever it held before, is the body's stored value. -/
theorem read0_C_o5 (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 : Vec F S512x4096 .f32) (x1 : Vec F S4096x128 .f32) (x2 : Vec F S512x128 .f32) (x3 : Vec F S128x128 .f32) (x4 : Vec F S128x128 .f32) (xs0 : Vec F S512x128 .f32) (xs1 : Vec F S512x128 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 hc0 hc1 x0 x1 x2 x3 x4 xs0 xs1).1) = k0_pay5 (k0_pay4 x0 xs1) (k0_pay3 x0 x1 xs0) x2 x3 x4 := by
  rw [View.read_writes_eq_canon _ _ _ (cover0_C_o5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S512x128) hz2]
  simp only [View.readAt_eq_ld, harg2.read_unread, harg3.read_unread, harg4.read_unread, harg5.read_unread, harg6.read_unread, harg8.read_unread, harg9.read_unread, View.ld_unit_zero (S := S512x4096) hz2, View.ld_unit_zero (S := S4096x128) hz2, View.ld_unit_zero (S := S512x128) hz2, View.ld_unit_zero (S := S128x128) hz2, View.readCov_unit_zero (S := S512x128) _ hz2]

end Cert.KernelIdeal.Fr

end
-- ==== Proof.FrI.Data.lean ====
/-
  What the kernel's buffers hold from point to point, stated through the body's own stored values.

  At point t = 4·i + k the first accumulator holds the running product sum of row tile i over the column tiles
  0 … k, the second the running row sums of the adjacency over the same tiles (spread along the lanes).  Both start
  again from zero wherever k = 0.  At k = 3 the body stores the finished block: the self projection plus the
  neighbour projection of the aggregate divided by the clamped degree.  The feature array reaches the kernel
  through two windows; each holds one half of the array's share.
-/
import proofs.«127362_j72773925863488_1_alg».proof.Proof.FrI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The input blocks at their literal types -/

/-- The adjacency tile of point `t`. -/
abbrev blk0 (c : Dev nD) (t : Fin cfg0.N) : Vec F S512x4096 .f32 := iblk m c 0 t
/-- The feature rows of the point's column tile. -/
abbrev blk1 (c : Dev nD) (t : Fin cfg0.N) : Vec F S4096x128 .f32 := iblk m c 1 t
/-- The feature rows of the point's row tile. -/
abbrev blk2 (c : Dev nD) (t : Fin cfg0.N) : Vec F S512x128 .f32 := iblk m c 2 t
/-- The two weight matrices. -/
abbrev blk3 (c : Dev nD) (t : Fin cfg0.N) : Vec F S128x128 .f32 := iblk m c 3 t
abbrev blk4 (c : Dev nD) (t : Fin cfg0.N) : Vec F S128x128 .f32 := iblk m c 4 t

/-! ## The accumulators after each point -/

/-- The two accumulators after the body at position `n`: from zero where the column tile is the first, else from
    what the point before left. -/
def scr (c : Dev nD) : (n : ℕ) → n < cfg0.N → Vec F S512x128 .f32 × Vec F S512x128 .f32
  | 0, hn => (k0_pay3 (blk0 m c ⟨0, hn⟩) (blk1 m c ⟨0, hn⟩) (k0_pay1 (F := F)), k0_pay4 (blk0 m c ⟨0, hn⟩) (k0_pay2 (F := F)))
  | n + 1, hn =>
    if (n + 1) % 4 = 0 then
      (k0_pay3 (blk0 m c ⟨n + 1, hn⟩) (blk1 m c ⟨n + 1, hn⟩) (k0_pay1 (F := F)), k0_pay4 (blk0 m c ⟨n + 1, hn⟩) (k0_pay2 (F := F)))
    else
      (k0_pay3 (blk0 m c ⟨n + 1, hn⟩) (blk1 m c ⟨n + 1, hn⟩) (scr c n (Nat.lt_of_succ_lt hn)).1,
       k0_pay4 (blk0 m c ⟨n + 1, hn⟩) (scr c n (Nat.lt_of_succ_lt hn)).2)

/-- At a first column tile: the accumulation from zero. -/
theorem scr_first (c : Dev nD) (t : Fin cfg0.N) (h0 : t.val % 4 = 0) :
    scr m c t.val t.isLt = (k0_pay3 (blk0 m c t) (blk1 m c t) (k0_pay1 (F := F)), k0_pay4 (blk0 m c t) (k0_pay2 (F := F))) := by
  obtain ⟨n, hn⟩ := t
  cases n with
  | zero => rfl
  | succ n => exact if_pos h0

/-- At a later column tile: the accumulation onto what the point before left. -/
theorem scr_next (c : Dev nD) (t : Fin cfg0.N) (h0 : ¬t.val % 4 = 0) :
    scr m c t.val t.isLt = (k0_pay3 (blk0 m c t) (blk1 m c t) (scr m c (t.val - 1) (Nat.lt_of_le_of_lt (Nat.sub_le _ _) t.isLt)).1,
      k0_pay4 (blk0 m c t) (scr m c (t.val - 1) (Nat.lt_of_le_of_lt (Nat.sub_le _ _) t.isLt)).2) := by
  obtain ⟨n, hn⟩ := t
  cases n with
  | zero => exact absurd (Nat.zero_mod _) h0
  | succ n => exact if_neg h0

/-- The block the body stores into the result's buffer at point `t` (stored at the last column tiles only). -/
def outv (c : Dev nD) (t : Fin cfg0.N) : Vec F S512x128 .f32 :=
  k0_pay5 (scr m c t.val t.isLt).2 (scr m c t.val t.isLt).1 (blk2 m c t) (blk3 m c t) (blk4 m c t)

/-! ## The region's invariant and proof data -/

/-- Before the first point the accumulators hold anything; after point `n` they hold `scr … n`. -/
def PhiS (c : Dev nD) : (n : ℕ) → n ≤ cfg0.N → sProp 𝕄
  | 0, _ => Pipeline.scopedRest spec0 c
  | n + 1, hn => iprop(owns (c : Thread nD τ) scM0_0 fullShare ((scr m c n hn).1) ∗ owns (c : Thread nD τ) scM0_1 fullShare ((scr m c n hn).2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0_0 fullShare ((scr m c n hn).1) ∗ owns (c : Thread nD τ) scM0_1 fullShare ((scr m c n hn).2)) := rfl

theorem PhiS_pos (c : Dev nD) (n : ℕ) (h : n ≤ cfg0.N) (hz : n ≠ 0) :
    PhiS m c n h = iprop(owns (c : Thread nD τ) scM0_0 fullShare ((scr m c (n - 1) (by omega)).1) ∗ owns (c : Thread nD τ) scM0_1 fullShare ((scr m c (n - 1) (by omega)).2)) := by
  cases n with
  | zero => exact absurd rfl hz
  | succ n => rfl

/-- The proof data of the pipeline on core `c`: the arrays as the launch left them; each input's buffer at its
    block and the result's at `outv` after the body; the accumulators carried in the invariant; nothing owed; the
    feature array's share dealt in halves to the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outv m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Fr

end
-- ==== Proof.FrI.Shares.lean ====
/-
  Dealing the arrays' shares.  The region's six windows sit on five distinct buffers: the feature array is behind
  two of them.  At entry its full share is cut in halves, one for each window; every other array goes to its one
  window whole.  Nothing writes an input, so at exit the two halves still hold the same contents and join back into
  the full share, and the result array is handed back at what the write-backs made of it.
-/
import proofs.«127362_j72773925863488_1_alg».proof.Proof.FrI.Data

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

open Classical in
/-- The core's buffers when the region is left: the result array at what the write-backs made of it, everything
    else as at entry. -/
def Vx (c : Dev nD) : Valuation τ sig (Elt F) :=
  Function.update (V0 m c) (Proc.devRef .tc main_v0) ((dats m 0 c).arrAt 5 cfg0.N)

theorem Vx_out (c : Dev nD) : Vx m c (Proc.devRef .tc main_v0) = (dats m 0 c).arrAt 5 cfg0.N := by
  unfold Vx; exact Function.update_self _ _ _

theorem Vx_in (c : Dev nD) (b : Ref sig .tc) (hb : b ≠ main_v0) : Vx m c (Proc.devRef .tc b) = V0 m c (Proc.devRef .tc b) := by
  unfold Vx; exact Function.update_of_ne (fun h => hb (Proc.devRef_injective _ h)) _ _

/-- The five buffers behind the six windows. -/
theorem arrRefs_eq : Finset.univ.image (Pipeline.arrRef spec0) = [main_arg1, main_arg0, main_arg2, main_arg3, main_v0].toFinset := by decide

theorem arrBufs_eq (c : Dev nD) (W : (b : Ref sig .tc) → Buf (Elt F) ((c.tc : Thread nD τ).loc b)) :
    (Pipeline.arrBufs spec0 c W : sProp 𝕄)
      = iprop((((c.tc : Thread nD τ).loc main_arg1) ↦{fullShare} W main_arg1) ∗ (((c.tc : Thread nD τ).loc main_arg0) ↦{fullShare} W main_arg0)
          ∗ (((c.tc : Thread nD τ).loc main_arg2) ↦{fullShare} W main_arg2) ∗ (((c.tc : Thread nD τ).loc main_arg3) ↦{fullShare} W main_arg3)
          ∗ (((c.tc : Thread nD τ).loc main_v0) ↦{fullShare} W main_v0)) := by
  unfold Pipeline.arrBufs
  exact Idealize.SL.BI.bigSep_eq_bigSepL_of_eq _ arrRefs_eq (by decide) _

/-- The windows' arrays at contents `G`, window by window at its share. -/
theorem arrays_eq (c : Dev nD) (G : (w : Fin cfg0.W) → Buf (Elt F) ((cfg0.win w).arr.view.loc (c.tc : Thread nD τ))) :
    ((dats m 0 c).arrays G : sProp 𝕄)
      = iprop((((c.tc : Thread nD τ).loc main_arg1) ↦{fullShare} G 0) ∗ (((c.tc : Thread nD τ).loc main_arg0) ↦{fullShare.left} G 1)
          ∗ (((c.tc : Thread nD τ).loc main_arg0) ↦{fullShare.right} G 2) ∗ (((c.tc : Thread nD τ).loc main_arg2) ↦{fullShare} G 3)
          ∗ (((c.tc : Thread nD τ).loc main_arg3) ↦{fullShare} G 4) ∗ (((c.tc : Thread nD τ).loc main_v0) ↦{fullShare} G 5)) := by
  unfold Dat.arrays
  rw [bigSep_W0]
  simp only [(arr_whole0 0).set_eq_univ, (arr_whole0 1).set_eq_univ, (arr_whole0 3).set_eq_univ, (arr_whole0 4).set_eq_univ, (arr_whole0 5).set_eq_univ]
  rfl

/-- At entry: the distinct buffers whole make the windows' arrays, the feature array's share cut in two. -/
theorem hsplit (c : Dev nD) :
    (Pipeline.arrBufs spec0 c (fun b => V0 m c (Proc.devRef .tc b)) : sProp 𝕄) ⊢ (dats m 0 c).arrays ((dats m 0 c).arrAt · 0) := by
  rw [arrBufs_eq, arrays_eq]
  iintro ⟨H1, H0, H2, H3, H4⟩
  ihave H0' := (Idealize.ShloMosaic.pointsTo_share (PosShare.mem_left_op_right fullShare)).1 $$ H0
  icases H0' with ⟨H0l, H0r⟩
  isplitl [H1]; · iexact H1
  isplitl [H0l]; · iexact H0l
  isplitl [H0r]; · iexact H0r
  isplitl [H2]; · iexact H2
  isplitl [H3]; · iexact H3
  iexact H4

/-- An input window's array is never written. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- At exit: the windows' arrays are the distinct buffers whole at the exit contents, and back. -/
theorem hmerge (c : Dev nD) :
    ((dats m 0 c).arrays ((dats m 0 c).arrAt · cfg0.N) : sProp 𝕄) ⊣⊢ Pipeline.arrBufs spec0 c (fun b => Vx m c (Proc.devRef .tc b)) := by
  rw [arrBufs_eq, arrays_eq]
  rw [arrAt_in m c 0 rfl, arrAt_in m c 1 rfl, arrAt_in m c 2 rfl, arrAt_in m c 3 rfl, arrAt_in m c 4 rfl]
  rw [Vx_out, Vx_in m c main_arg1 (by decide), Vx_in m c main_arg0 (by decide), Vx_in m c main_arg2 (by decide), Vx_in m c main_arg3 (by decide)]
  constructor
  · iintro ⟨H1, H0l, H0r, H2, H3, H4⟩
    ihave H0 := (Idealize.ShloMosaic.pointsTo_share (PosShare.mem_left_op_right fullShare)).2 $$ [H0l H0r]
    · isplitl [H0l]; · iexact H0l
      iexact H0r
    isplitl [H1]; · iexact H1
    isplitl [H0]; · iexact H0
    isplitl [H2]; · iexact H2
    isplitl [H3]; · iexact H3
    iexact H4
  · iintro ⟨H1, H0, H2, H3, H4⟩
    ihave H0' := (Idealize.ShloMosaic.pointsTo_share (PosShare.mem_left_op_right fullShare)).1 $$ H0
    icases H0' with ⟨H0l, H0r⟩
    isplitl [H1]; · iexact H1
    isplitl [H0l]; · iexact H0l
    isplitl [H0r]; · iexact H0r
    isplitl [H2]; · iexact H2
    isplitl [H3]; · iexact H3
    iexact H4

/-- Every unscoped buffer of the core is a window's array: nothing bypasses the region. -/
theorem restRefs_empty : Pipeline.restRefs sig spec0 = ∅ := by decide

end Cert.KernelIdeal.Fr

end
-- ==== Proof.FrI.Frame.lean ====
/-
  The region's body obligation and the run of @main.  At every grid point the body, called on the windows' current
  staging buffers and the two accumulators, takes the invariant before the point to the invariant after it: by cases
  on the column tile (first, middle, last), each case the body's run with the contents it leaves read back.  The
  launch then runs the whole pipeline: every execution terminates, the argument arrays are never written, and the
  result array ends at what the proof data's write-backs compute.
-/
import proofs.«127362_j72773925863488_1_alg».proof.Proof.FrI.Pieces
import proofs.«127362_j72773925863488_1_alg».proof.Proof.FrI.Data
import proofs.«127362_j72773925863488_1_alg».proof.Proof.FrI.Shares
import proofs.«127362_j72773925863488_1_alg».proof.Proof.LibSharedLaunch

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 128 := lt_of_lt_of_eq t.isLt (show cfg0.N = 128 from N_0)
  by_cases h0 : t.val % 4 = 0
  · have h1 : ¬t.val % 4 = 3 := by omega
    rw [Dat.leavesExact_idle (dats m 0 c) 5 t (idleAt0_5 t (fun h => h1 ((hcond0_1 t).mp h))) (noFlush0_5 t (fun h => h1 ((hcond0_1 t).mp h)))]
    rw [scr_first m c t h0]
    dsimp only
    by_cases hz : t.val = 0
    · rw [PhiS_castSucc m c t, PhiS_zero m c _ _ hz, scopedRest_eq]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t)).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1]
      · isplitl [HS0]
        · unfold owns; iexists _; isplitr
          swap; · iexact HS0
          ipureintro; exact read0_A_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t) es0
        · unfold owns; iexists _; isplitr
          swap; · iexact HS1
          ipureintro; exact read0_A_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t) es1
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t)).2.2 Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1]
      · isplitl [HS0]
        · unfold owns; iexists _; isplitr
          swap; · iexact HS0
          ipureintro; exact read0_A_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t) es0
        · unfold owns; iexists _; isplitr
          swap; · iexact HS1
          ipureintro; exact read0_A_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blk0 m c t) (blk1 m c t) es1
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · rw [show (dats m 0 c).leavesExact 5 t = owns (c : Thread nD τ) (ms0_5 t) fullShare ((dats m 0 c).after 5 t) from by
        unfold Dat.leavesExact; rw [liveAt0_5 t ((hcond0_1 t).mpr h1)], after0_5]
      unfold outv
      rw [scr_next m c t h0]
      dsimp only
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1]
      · isplitl [HS0]
        · unfold owns; iexists _; isplitr
          swap; · iexact HS0
          ipureintro; exact read0_C_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) _ _ es0
        · unfold owns; iexists _; isplitr
          swap; · iexact HS1
          ipureintro; exact read0_C_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) _ _ es1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact read0_C_o5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) _ _ e5
    · rw [Dat.leavesExact_idle (dats m 0 c) 5 t (idleAt0_5 t (fun h => h1 ((hcond0_1 t).mp h))) (noFlush0_5 t (fun h => h1 ((hcond0_1 t).mp h)))]
      rw [scr_next m c t h0]
      dsimp only
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (blk0 m c t) (blk1 m c t) _ _).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1]
      · isplitl [HS0]
        · unfold owns; iexists _; isplitr
          swap; · iexact HS0
          ipureintro; exact read0_B_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (blk0 m c t) (blk1 m c t) _ _ es0
        · unfold owns; iexists _; isplitr
          swap; · iexact HS1
          ipureintro; exact read0_B_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (blk0 m c t) (blk1 m c t) _ _ es1
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- The accumulators at anything are the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

/-- After the last point the invariant gives them back, their contents forgotten. -/
theorem hout (c : Dev nD) : (dats m 0 c).Φ (Fin.last cfg0.N) ⊢ (Pipeline.scopedRest spec0 c : sProp 𝕄) := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), scopedRest_eq]
  iintro ⟨HS0, HS1⟩
  isplitl [HS0]
  · iexists _; iexact HS0
  iexists _; iexact HS1

/-! ## The run -/

set_option backward.isDefEq.respectTransparency.types false in
/-- Every weakly fair execution of @main terminates, with every window's array at what the proof data computes. -/
theorem run_main : θ_run defs (onTc (τ := τ) (main (F := F))) (s₀ m ρ) (fun r => ∀ c : Dev nD,
      (∀ w, r.2.mem (((cfgs 0).spec w).arr.view.loc (c.tc : Thread nD τ)) = (dats m 0 c).arrAt w (cfgs 0).N)
      ∧ ∀ b ∈ Pipeline.restRefs sig (cfgs 0).spec, r.2.mem ((c.tc : Thread nD τ).loc b) = StableHlo.after ([] : List (List (HloOp τ sig (Elt F)))).flatten (Vx m c) (Proc.devRef .tc b)) :=
  Pipeline.θ_run_shared_around cfgs (dats m) (0 : Fin 1) defs₀ Variants.none cellOf_inj winFacts₀0 block_pos0 arr_whole0 stage_whole0 m ρ main
    (hbody := fun c => (body_obligation m c).loose) (howed := fun _ _ => rfl) (V₀ := V0 m) (Vx := Vx m) (opss := [])
    (hsub := fun ops h => absurd h (List.not_mem_nil)) (hfresh := fun ops h => absurd h (List.not_mem_nil)) (hkeep := fun ops h => absurd h (List.not_mem_nil))
    (hmain := hmain m Variants.none) (hsplit := hsplit m) (hmerge := hmerge m)
    (hrest := fun c b hb => absurd hb (by rw [show Pipeline.restRefs sig (cfgs 0).spec = ∅ from restRefs_empty]; exact Finset.notMem_empty b))
    (hin := hin m) (hout := hout m)

/-- The same read at @main's buffers: the result array at the proof data's final contents, the four argument arrays
    as the launch left them. -/
theorem run_value : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1 5,
      ((h c).1 1).trans ((arrAt_in m c 1 rfl _).trans (V_main_arg0 m c)),
      ((h c).1 0).trans ((arrAt_in m c 0 rfl _).trans (V_main_arg1 m c)),
      ((h c).1 3).trans ((arrAt_in m c 3 rfl _).trans (V_main_arg2 m c)),
      ((h c).1 4).trans ((arrAt_in m c 4 rfl _).trans (V_main_arg3 m c))⟩) (run_main m ρ)

/-- THE FRAME: @main runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_value m ρ)

end Cert.KernelIdeal.Fr

end
-- ==== Proof.LibBlockSum.lean ====
/-
  Sums over an axis cut into equal blocks, on any commutative additive monoid, generic in the extents.

  An axis of n = a * b positions is a blocks of b positions each: position p of block i is position b * i + p of the
  axis, and every position is of that form exactly once. So the sum of a function over the axis is the sum over the
  blocks of its sums inside each block; and for a function of two such axes, the sum over all pairs of positions is the
  sum over the pairs of blocks (the tiles) of the sums inside each tile.
-/
import Mathlib.Algebra.BigOperators.Fin
import Mathlib.Logic.Equiv.Fin.Basic

open scoped BigOperators

namespace Cert.Lib.BlockSum

/-- Position p of block i of an axis of n = a * b positions cut into a blocks of b. -/
def blockPos (a b n : ℕ) (h : a * b = n) : Fin a × Fin b ≃ Fin n :=
  finProdFinEquiv.trans (finCongr h)

/-- It is position b * i + p of the axis. -/
theorem blockPos_val (a b n : ℕ) (h : a * b = n) (i : Fin a) (p : Fin b) :
    (blockPos a b n h (i, p)).val = p.val + b * i.val := rfl

/-- A sum over an axis is the sum over its blocks of the sums inside each block. -/
theorem sum_blocks {M : Type*} [AddCommMonoid M] (a b n : ℕ) (h : a * b = n) (f : Fin n → M) :
    ∑ i : Fin a, ∑ p : Fin b, f (blockPos a b n h (i, p)) = ∑ P : Fin n, f P := by
  rw [← Fintype.sum_prod_type' (fun i p => f (blockPos a b n h (i, p)))]
  exact Equiv.sum_comp (blockPos a b n h) f

/-- A sum over all pairs of positions of two axes is the sum over the tiles (a block of the first axis against a block
    of the second) of the sums over each tile's pairs. -/
theorem sum_tiles {M : Type*} [AddCommMonoid M] (a b n a' b' n' : ℕ) (h : a * b = n) (h' : a' * b' = n')
    (L : Fin n → Fin n' → M) :
    ∑ i : Fin a, ∑ j : Fin a', ∑ p : Fin b, ∑ q : Fin b', L (blockPos a b n h (i, p)) (blockPos a' b' n' h' (j, q))
      = ∑ P : Fin n, ∑ Q : Fin n', L P Q := by
  rw [← sum_blocks a b n h (fun P => ∑ Q : Fin n', L P Q)]
  refine Finset.sum_congr rfl fun i _ => ?_
  rw [Finset.sum_comm]
  refine Finset.sum_congr rfl fun p _ => ?_
  rw [← sum_blocks a' b' n' h' (fun Q => L (blockPos a b n h (i, p)) Q)]

end Cert.Lib.BlockSum
-- ==== Proof.Val.Spec.lean ====
/-
  The layer both programs compute, as one function of the four argument arrays over the extended reals.

  For a graph on 16384 nodes with adjacency weights adj and node features h (128 per node), row p of the result is
  the self projection h_p · W_self plus the neighbour projection (agg_p / deg_p) · W_neigh, where
  agg_p = Σ_j adj(p, j) · h_j is the weighted sum of the neighbours' features and deg_p = max(Σ_j adj(p, j), 1)
  the row's weight clamped from below by one.  Also the one law of sums the kernel's tiling needs: a sum over 16384
  positions gathered four blocks of 4096 at a time, each partial sum added onto the running total from zero, is
  the whole sum — addition on the extended reals is commutative and associative with 0 neutral, so no finiteness
  is asked of the entries.
-/
import Idealize.ShloMosaic.PureOps.Ideal
import Idealize.ShloMosaic.Lib.ValueIdx
import proofs.«127362_j72773925863488_1_alg».proof.Proof.LibBlockSum

noncomputable section

namespace Cert.Sage

open Idealize.ShloMosaic Idealize.ShloMosaic.ValueIdx

/-- The feature and result arrays' shape, the adjacency's, the weight matrices'. -/
abbrev Feat : Shape := ⟨2, ![16384, 128]⟩
abbrev Adj : Shape := ⟨2, ![16384, 16384]⟩
abbrev Wt : Shape := ⟨2, ![128, 128]⟩

/-- The weighted sum of the neighbours' feature k for node p. -/
def agg (h : FVec Ideal Feat .f32) (adj : FVec Ideal Adj .f32) (p : Fin 16384) (k : Fin 128) : EReal :=
  ∑ j : Fin 16384, adj (ix2 p j) * h (ix2 j k)

/-- Node p's total edge weight, clamped from below by the float one. -/
def deg (adj : FVec Ideal Adj .f32) (p : Fin 16384) : EReal :=
  max (∑ j : Fin 16384, adj (ix2 p j)) (Ideal.ofBits .f32 0x3F800000#32)

/-- The layer's result at node p, output feature q. -/
def layer (h : FVec Ideal Feat .f32) (adj : FVec Ideal Adj .f32) (ws wn : FVec Ideal Wt .f32) (p : Fin 16384) (q : Fin 128) : EReal :=
  (∑ k : Fin 128, h (ix2 p k) * ws (ix2 k q)) + ∑ k : Fin 128, Ideal.div (agg h adj p k) (deg adj p) * wn (ix2 k q)

/-- The whole result array. -/
def G (h : FVec Ideal Feat .f32) (adj : FVec Ideal Adj .f32) (ws wn : FVec Ideal Wt .f32) : FVec Ideal Feat .f32 :=
  fun i => layer h adj ws wn (i 0) (i 1)

theorem G_apply (h : FVec Ideal Feat .f32) (adj : FVec Ideal Adj .f32) (ws wn : FVec Ideal Wt .f32) (p : Fin 16384) (q : Fin 128) :
    G h adj ws wn (ix2 p q) = layer h adj ws wn p q := rfl

/-- Position jj of column tile kb (four tiles of 4096 columns). -/
abbrev tilePos (kb : Fin 4) (jj : Fin 4096) : Fin 16384 := Cert.Lib.BlockSum.blockPos 4 4096 16384 rfl (kb, jj)

theorem tilePos_val (kb : Fin 4) (jj : Fin 4096) : (tilePos kb jj).val = jj.val + 4096 * kb.val := rfl

/-- Four partial sums added one after the other onto zero make the whole sum. -/
theorem four_tiles (f : Fin 16384 → EReal) :
    (((0 + ∑ jj : Fin 4096, f (tilePos 0 jj)) + ∑ jj : Fin 4096, f (tilePos 1 jj)) + ∑ jj : Fin 4096, f (tilePos 2 jj))
        + ∑ jj : Fin 4096, f (tilePos 3 jj) = ∑ j : Fin 16384, f j := by
  rw [← Cert.Lib.BlockSum.sum_blocks 4 4096 16384 rfl f, Fin.sum_univ_four, zero_add]

end Cert.Sage

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.Val.Payloads.lean ====
/-
  The body's stored values read at one entry over the extended reals (a change of float format is the identity
  there): the zero fill; the first accumulator's update, the old entry plus the entry of the tile product; the second
  accumulator's update, the old entry plus the tile's row sum; and the finished block, the self projection plus the
  neighbour projection of the aggregate divided by the degree clamped from below by one.
-/
import proofs.«127362_j72773925863488_1_alg».proof.Proof.Gen.KernelIdeal.Skeleton
import proofs.«127362_j72773925863488_1_alg».proof.Proof.LibPlainDot
import proofs.«127362_j72773925863488_1_alg».proof.Proof.LibKeepdims
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen

theorem pay1_apply (p : Fin 512) (q : Fin 128) : (k0_pay1 (F := Ideal)) (ix2 p q) = 0 := by
  unfold k0_pay1
  refine (congrFun (shapeCast_self _ _) (ix2 p q)).trans ?_
  exact Ideal.ofBits_zero_f32

theorem pay2_apply (p : Fin 512) (q : Fin 128) : (k0_pay2 (F := Ideal)) (ix2 p q) = 0 := by
  unfold k0_pay2
  refine (congrFun (shapeCast_self _ _) (ix2 p q)).trans ?_
  exact Ideal.ofBits_zero_f32

theorem pay3_apply (x0 : Vec Ideal S512x4096 .f32) (x1 : Vec Ideal S4096x128 .f32) (s : Vec Ideal S512x128 .f32) (p : Fin 512) (q : Fin 128) :
    k0_pay3 (F := Ideal) x0 x1 s (ix2 p q) = s (ix2 p q) + ∑ j : Fin 4096, x0 (ix2 p j) * x1 (ix2 j q) := by
  unfold k0_pay3
  refine (congrFun (shapeCast_self _ _) (ix2 p q)).trans ?_
  refine congrArg (s (ix2 p q) + ·) ?_
  exact Cert.Lib.PlainDot.matmul_zero_apply 512 4096 128 none _ _ p q

theorem pay4_apply (x0 : Vec Ideal S512x4096 .f32) (s : Vec Ideal S512x128 .f32) (p : Fin 512) (q : Fin 128) :
    k0_pay4 (F := Ideal) x0 s (ix2 p q) = s (ix2 p q) + ∑ j : Fin 4096, x0 (ix2 p j) := by
  unfold k0_pay4
  refine (congrFun (shapeCast_self _ _) (ix2 p q)).trans ?_
  refine congrArg (s (ix2 p q) + ·) ?_
  refine (Cert.Lib.Keepdims.broadcastTo_a1_ab_apply _ _ p q).trans ?_
  refine (congrFun (shapeCast_self _ _) (ix2 p (0 : Fin 1))).trans ?_
  refine (Cert.Lib.Keepdims.shapeCast_a_a1_apply _ _ p (0 : Fin 1)).trans ?_
  exact Cert.Lib.Keepdims.rowSum_apply _ _ _ _ _ p

theorem pay5_apply (d a x2 : Vec Ideal S512x128 .f32) (x3 x4 : Vec Ideal S128x128 .f32) (p : Fin 512) (q : Fin 128) :
    k0_pay5 (F := Ideal) d a x2 x3 x4 (ix2 p q)
      = (∑ k : Fin 128, x2 (ix2 p k) * x3 (ix2 k q))
        + ∑ k : Fin 128, Ideal.div (a (ix2 p k)) (max (d (ix2 p k)) (Ideal.ofBits .f32 0x3F800000#32)) * x4 (ix2 k q) := by
  unfold k0_pay5
  refine congrArg₂ (· + ·) ?_ ?_
  · exact Cert.Lib.PlainDot.matmul_zero_apply 512 128 128 none _ _ p q
  · exact Cert.Lib.PlainDot.matmul_zero_apply 512 128 128 none _ _ p q

end Cert.KernelIdeal.Val

end
-- ==== Proof.Val.Blocks.lean ====
/-
  Where each window's block sits in its array.  Point t = 4·i + k of the grid stages rows 512·i … of the adjacency
  against its columns 4096·k …, rows 4096·k … of the features (the neighbours of that column tile), rows 512·i … of
  the features (the row tile's own), the two weight matrices whole.
-/
import proofs.«127362_j72773925863488_1_alg».proof.Proof.FrI.Data
import Idealize.ShloMosaic.Lib.Pipeline.Value
import Idealize.ShloMosaic.Lib.ValueIdx

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr

variable {F : FTy → Type} [FloatOps F]
variable (m : (ℓ : Loc nD τ sig) → Buf (Elt F) ℓ)

/-- The row tile and the column tile of a point. -/
theorem N_eq : cfg0.N = 128 := N_0
theorem row_lt (t : Fin cfg0.N) (p : Fin 512) : 512 * (t.val / 4) + p.val < 16384 := by
  have hN : cfg0.N = 128 := N_0
  have := t.isLt; have := p.isLt; omega
theorem col_lt (t : Fin cfg0.N) (j : Fin 4096) : 4096 * (t.val % 4) + j.val < 16384 := by
  have := j.isLt; omega

/-- The node a row of the point's row tile is. -/
abbrev rowOf (t : Fin cfg0.N) (p : Fin 512) : Fin 16384 := ⟨512 * (t.val / 4) + p.val, row_lt t p⟩
/-- The node a column of the point's column tile is. -/
abbrev colOf (t : Fin cfg0.N) (j : Fin 4096) : Fin 16384 := ⟨4096 * (t.val % 4) + j.val, col_lt t j⟩

/-- The block indices of the five input windows at point `t`: window 0 follows both grid coordinates, window 1 the
    column tile, window 2 the row tile, windows 3 and 4 stay at the origin. -/
private theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem blk0_apply (c : Dev nD) (t : Fin cfg0.N) (p : Fin 512) (j : Fin 4096) :
    blk0 m c t (ix2 p j) = m ((c.tc : Thread nD τ).loc main_arg1) (ix2 (rowOf t p) (colOf t j)) := by
  obtain ⟨e0, e1, -⟩ := idx_facts t
  show V m c main_arg1 (((cfg0.win 0).blk t).view.emb (ix2 p j)) = V m c main_arg1 (ix2 (rowOf t p) (colOf t j))
  refine congrArg _ ?_
  funext a; apply Fin.ext
  match a with
  | ⟨0, _⟩ => show win0_0.index t (0 : Fin 2) * 512 + 1 * p.val = 512 * (t.val / 4) + p.val; omega
  | ⟨1, _⟩ => show win0_0.index t (1 : Fin 2) * 4096 + 1 * j.val = 4096 * (t.val % 4) + j.val; omega

theorem blk1_apply (c : Dev nD) (t : Fin cfg0.N) (j : Fin 4096) (q : Fin 128) :
    blk1 m c t (ix2 j q) = m ((c.tc : Thread nD τ).loc main_arg0) (ix2 (colOf t j) q) := by
  obtain ⟨-, -, e0, e1, -⟩ := idx_facts t
  show V m c main_arg0 (((cfg0.win 1).blk t).view.emb (ix2 j q)) = V m c main_arg0 (ix2 (colOf t j) q)
  refine congrArg _ ?_
  funext a; apply Fin.ext
  match a with
  | ⟨0, _⟩ => show win0_1.index t (0 : Fin 2) * 4096 + 1 * j.val = 4096 * (t.val % 4) + j.val; omega
  | ⟨1, _⟩ => show win0_1.index t (1 : Fin 2) * 128 + 1 * q.val = q.val; omega

theorem blk2_apply (c : Dev nD) (t : Fin cfg0.N) (p : Fin 512) (k : Fin 128) :
    blk2 m c t (ix2 p k) = m ((c.tc : Thread nD τ).loc main_arg0) (ix2 (rowOf t p) k) := by
  obtain ⟨-, -, -, -, e0, e1, -⟩ := idx_facts t
  show V m c main_arg0 (((cfg0.win 2).blk t).view.emb (ix2 p k)) = V m c main_arg0 (ix2 (rowOf t p) k)
  refine congrArg _ ?_
  funext a; apply Fin.ext
  match a with
  | ⟨0, _⟩ => show win0_2.index t (0 : Fin 2) * 512 + 1 * p.val = 512 * (t.val / 4) + p.val; omega
  | ⟨1, _⟩ => show win0_2.index t (1 : Fin 2) * 128 + 1 * k.val = k.val; omega

theorem blk3_apply (c : Dev nD) (t : Fin cfg0.N) (k : Fin 128) (q : Fin 128) :
    blk3 m c t (ix2 k q) = m ((c.tc : Thread nD τ).loc main_arg2) (ix2 k q) := by
  obtain ⟨-, -, -, -, -, -, e0, e1, -⟩ := idx_facts t
  show V m c main_arg2 (((cfg0.win 3).blk t).view.emb (ix2 k q)) = V m c main_arg2 (ix2 k q)
  refine congrArg _ ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem blk4_apply (c : Dev nD) (t : Fin cfg0.N) (k : Fin 128) (q : Fin 128) :
    blk4 m c t (ix2 k q) = m ((c.tc : Thread nD τ).loc main_arg3) (ix2 k q) := by
  obtain ⟨-, -, -, -, -, -, -, -, e0, e1⟩ := idx_facts t
  show V m c main_arg3 (((cfg0.win 4).blk t).view.emb (ix2 k q)) = V m c main_arg3 (ix2 k q)
  refine congrArg _ ?_
  funext a; apply Fin.ext
  match a with
  | ⟨0, _⟩ => show win0_4.index t (0 : Fin 2) * 128 + 1 * k.val = k.val; omega
  | ⟨1, _⟩ => show win0_4.index t (1 : Fin 2) * 128 + 1 * q.val = q.val; omega

end Cert.KernelIdeal.Val

end
-- ==== Proof.Val.Acc.lean ====
/-
  The accumulators in closed form.  After the last column tile of row tile i the first accumulator holds, at
  (p, q), the whole weighted neighbour sum of node 512·i + p for feature q, and the second the node's whole row
  sum of the adjacency: four tile sums added one after the other onto zero.  The block stored there is then the
  layer's result for the tile's nodes.
-/
import proofs.«127362_j72773925863488_1_alg».proof.Proof.FrI.Data
import proofs.«127362_j72773925863488_1_alg».proof.Proof.Val.Spec
import proofs.«127362_j72773925863488_1_alg».proof.Proof.Val.Payloads
import proofs.«127362_j72773925863488_1_alg».proof.Proof.Val.Blocks

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ)

/-- The four argument arrays of core `c`, as the layer's function takes them. -/
abbrev hArr (c : Dev nD) : FVec Ideal Cert.Sage.Feat .f32 := m ((c.tc : Thread nD τ).loc main_arg0)
abbrev adjArr (c : Dev nD) : FVec Ideal Cert.Sage.Adj .f32 := m ((c.tc : Thread nD τ).loc main_arg1)
abbrev wsArr (c : Dev nD) : FVec Ideal Cert.Sage.Wt .f32 := m ((c.tc : Thread nD τ).loc main_arg2)
abbrev wnArr (c : Dev nD) : FVec Ideal Cert.Sage.Wt .f32 := m ((c.tc : Thread nD τ).loc main_arg3)

/-! ## One step of the accumulation, read at one entry -/

/-- A later column tile's step, with the point before given by its position alone. -/
private theorem scr_step (c : Dev nD) (t t' : Fin cfg0.N) (h0 : ¬t.val % 4 = 0) (ht' : t'.val = t.val - 1) :
    scr m c t.val t.isLt = (k0_pay3 (blk0 m c t) (blk1 m c t) (scr m c t'.val t'.isLt).1,
      k0_pay4 (blk0 m c t) (scr m c t'.val t'.isLt).2) := by
  obtain ⟨n', hn'⟩ := t'
  have hn : n' = t.val - 1 := ht'
  subst hn
  exact scr_next m c t h0

/-- At a later column tile each accumulator's entry is the entry before plus the tile's partial sum. -/
private theorem acc_step (c : Dev nD) (t t' : Fin cfg0.N) (h0 : ¬t.val % 4 = 0) (ht' : t'.val = t.val - 1)
    (p : Fin 512) (q : Fin 128) :
    (scr m c t.val t.isLt).1 (ix2 p q)
        = (scr m c t'.val t'.isLt).1 (ix2 p q) + ∑ j : Fin 4096, blk0 m c t (ix2 p j) * blk1 m c t (ix2 j q)
      ∧ (scr m c t.val t.isLt).2 (ix2 p q)
        = (scr m c t'.val t'.isLt).2 (ix2 p q) + ∑ j : Fin 4096, blk0 m c t (ix2 p j) := by
  have e := scr_step m c t t' h0 ht'
  constructor
  · refine (congrArg (fun s => s.1 (ix2 p q)) e).trans ?_
    exact pay3_apply _ _ _ p q
  · refine (congrArg (fun s => s.2 (ix2 p q)) e).trans ?_
    exact pay4_apply _ _ p q

/-- At a first column tile each accumulator's entry is zero plus the tile's partial sum. -/
private theorem acc_first (c : Dev nD) (t : Fin cfg0.N) (h0 : t.val % 4 = 0) (p : Fin 512) (q : Fin 128) :
    (scr m c t.val t.isLt).1 (ix2 p q) = 0 + ∑ j : Fin 4096, blk0 m c t (ix2 p j) * blk1 m c t (ix2 j q)
      ∧ (scr m c t.val t.isLt).2 (ix2 p q) = 0 + ∑ j : Fin 4096, blk0 m c t (ix2 p j) := by
  have e := scr_first m c t h0
  constructor
  · refine (congrArg (fun s => s.1 (ix2 p q)) e).trans ?_
    refine (pay3_apply _ _ _ p q).trans ?_
    rw [pay1_apply]
  · refine (congrArg (fun s => s.2 (ix2 p q)) e).trans ?_
    refine (pay4_apply _ _ p q).trans ?_
    rw [pay2_apply]

/-! ## A tile's partial sums in the arrays' own coordinates -/

/-- The adjacency tile's entry: node `r` of the row tile against position `j` of column tile `kb`. -/
private theorem blk0_tile (c : Dev nD) (t : Fin cfg0.N) (kb : Fin 4) (hk : t.val % 4 = kb.val) (r : Fin 16384)
    (p : Fin 512) (hr : r.val = 512 * (t.val / 4) + p.val) (j : Fin 4096) :
    blk0 m c t (ix2 p j) = adjArr m c (ix2 r (Cert.Sage.tilePos kb j)) := by
  have e1 : rowOf t p = r := Fin.ext hr.symm
  have e2 : colOf t j = Cert.Sage.tilePos kb j :=
    Fin.ext (by show 4096 * (t.val % 4) + j.val = j.val + 4096 * kb.val; omega)
  rw [blk0_apply, e1, e2]

/-- The neighbours' feature rows of column tile `kb`. -/
private theorem blk1_tile (c : Dev nD) (t : Fin cfg0.N) (kb : Fin 4) (hk : t.val % 4 = kb.val)
    (j : Fin 4096) (q : Fin 128) :
    blk1 m c t (ix2 j q) = hArr m c (ix2 (Cert.Sage.tilePos kb j) q) := by
  have e2 : colOf t j = Cert.Sage.tilePos kb j :=
    Fin.ext (by show 4096 * (t.val % 4) + j.val = j.val + 4096 * kb.val; omega)
  rw [blk1_apply, e2]

/-- The tile's share of the weighted neighbour sum. -/
private theorem tile_agg (c : Dev nD) (t : Fin cfg0.N) (kb : Fin 4) (hk : t.val % 4 = kb.val) (r : Fin 16384)
    (p : Fin 512) (hr : r.val = 512 * (t.val / 4) + p.val) (q : Fin 128) :
    ∑ j : Fin 4096, blk0 m c t (ix2 p j) * blk1 m c t (ix2 j q)
      = ∑ jj : Fin 4096, (fun j => adjArr m c (ix2 r j) * hArr m c (ix2 j q)) (Cert.Sage.tilePos kb jj) :=
  Finset.sum_congr rfl fun j _ => by
    rw [blk0_tile m c t kb hk r p hr j, blk1_tile m c t kb hk j q]

/-- The tile's share of the row sum. -/
private theorem tile_deg (c : Dev nD) (t : Fin cfg0.N) (kb : Fin 4) (hk : t.val % 4 = kb.val) (r : Fin 16384)
    (p : Fin 512) (hr : r.val = 512 * (t.val / 4) + p.val) :
    ∑ j : Fin 4096, blk0 m c t (ix2 p j)
      = ∑ jj : Fin 4096, (fun j => adjArr m c (ix2 r j)) (Cert.Sage.tilePos kb jj) :=
  Finset.sum_congr rfl fun j _ => blk0_tile m c t kb hk r p hr j

/-- After the last column tile the first accumulator is the weighted neighbour sum of the tile's nodes. -/
theorem scr_last_agg (c : Dev nD) (t : Fin cfg0.N) (h3 : t.val % 4 = 3) (p : Fin 512) (q : Fin 128) :
    (scr m c t.val t.isLt).1 (ix2 p q) = Cert.Sage.agg (hArr m c) (adjArr m c) (rowOf t p) q := by
  have hN : cfg0.N = 128 := N_0
  have ht := t.isLt
  obtain ⟨t2, ht2⟩ : ∃ t2 : Fin cfg0.N, t2.val = t.val - 1 := ⟨⟨t.val - 1, by omega⟩, rfl⟩
  obtain ⟨t1, ht1⟩ : ∃ t1 : Fin cfg0.N, t1.val = t2.val - 1 := ⟨⟨t2.val - 1, by omega⟩, rfl⟩
  obtain ⟨t0, ht0⟩ : ∃ t0 : Fin cfg0.N, t0.val = t1.val - 1 := ⟨⟨t1.val - 1, by omega⟩, rfl⟩
  have k3 : t.val % 4 = (3 : Fin 4).val := h3
  have k2 : t2.val % 4 = (2 : Fin 4).val := by show t2.val % 4 = 2; omega
  have k1 : t1.val % 4 = (1 : Fin 4).val := by show t1.val % 4 = 1; omega
  have k0 : t0.val % 4 = (0 : Fin 4).val := by show t0.val % 4 = 0; omega
  have r3 : (rowOf t p).val = 512 * (t.val / 4) + p.val := rfl
  have r2 : (rowOf t p).val = 512 * (t2.val / 4) + p.val := by show 512 * (t.val / 4) + p.val = _; omega
  have r1 : (rowOf t p).val = 512 * (t1.val / 4) + p.val := by show 512 * (t.val / 4) + p.val = _; omega
  have r0 : (rowOf t p).val = 512 * (t0.val / 4) + p.val := by show 512 * (t.val / 4) + p.val = _; omega
  rw [(acc_step m c t t2 (by omega) ht2 p q).1, (acc_step m c t2 t1 (by omega) ht1 p q).1,
    (acc_step m c t1 t0 (by omega) ht0 p q).1, (acc_first m c t0 (by omega) p q).1,
    tile_agg m c t 3 k3 (rowOf t p) p r3 q, tile_agg m c t2 2 k2 (rowOf t p) p r2 q,
    tile_agg m c t1 1 k1 (rowOf t p) p r1 q, tile_agg m c t0 0 k0 (rowOf t p) p r0 q]
  exact Cert.Sage.four_tiles fun j => adjArr m c (ix2 (rowOf t p) j) * hArr m c (ix2 j q)

/-- And every lane of the second is the node's row sum of the adjacency. -/
theorem scr_last_deg (c : Dev nD) (t : Fin cfg0.N) (h3 : t.val % 4 = 3) (p : Fin 512) (q : Fin 128) :
    (scr m c t.val t.isLt).2 (ix2 p q) = ∑ j : Fin 16384, adjArr m c (ix2 (rowOf t p) j) := by
  have hN : cfg0.N = 128 := N_0
  have ht := t.isLt
  obtain ⟨t2, ht2⟩ : ∃ t2 : Fin cfg0.N, t2.val = t.val - 1 := ⟨⟨t.val - 1, by omega⟩, rfl⟩
  obtain ⟨t1, ht1⟩ : ∃ t1 : Fin cfg0.N, t1.val = t2.val - 1 := ⟨⟨t2.val - 1, by omega⟩, rfl⟩
  obtain ⟨t0, ht0⟩ : ∃ t0 : Fin cfg0.N, t0.val = t1.val - 1 := ⟨⟨t1.val - 1, by omega⟩, rfl⟩
  have k3 : t.val % 4 = (3 : Fin 4).val := h3
  have k2 : t2.val % 4 = (2 : Fin 4).val := by show t2.val % 4 = 2; omega
  have k1 : t1.val % 4 = (1 : Fin 4).val := by show t1.val % 4 = 1; omega
  have k0 : t0.val % 4 = (0 : Fin 4).val := by show t0.val % 4 = 0; omega
  have r3 : (rowOf t p).val = 512 * (t.val / 4) + p.val := rfl
  have r2 : (rowOf t p).val = 512 * (t2.val / 4) + p.val := by show 512 * (t.val / 4) + p.val = _; omega
  have r1 : (rowOf t p).val = 512 * (t1.val / 4) + p.val := by show 512 * (t.val / 4) + p.val = _; omega
  have r0 : (rowOf t p).val = 512 * (t0.val / 4) + p.val := by show 512 * (t.val / 4) + p.val = _; omega
  rw [(acc_step m c t t2 (by omega) ht2 p q).2, (acc_step m c t2 t1 (by omega) ht1 p q).2,
    (acc_step m c t1 t0 (by omega) ht0 p q).2, (acc_first m c t0 (by omega) p q).2,
    tile_deg m c t 3 k3 (rowOf t p) p r3, tile_deg m c t2 2 k2 (rowOf t p) p r2,
    tile_deg m c t1 1 k1 (rowOf t p) p r1, tile_deg m c t0 0 k0 (rowOf t p) p r0]
  exact Cert.Sage.four_tiles fun j => adjArr m c (ix2 (rowOf t p) j)

/-- The block stored at the last column tile is the layer's result for the tile's nodes. -/
theorem outv_apply (c : Dev nD) (t : Fin cfg0.N) (h3 : t.val % 4 = 3) (p : Fin 512) (q : Fin 128) :
    outv m c t (ix2 p q) = Cert.Sage.layer (hArr m c) (adjArr m c) (wsArr m c) (wnArr m c) (rowOf t p) q := by
  show k0_pay5 (scr m c t.val t.isLt).2 (scr m c t.val t.isLt).1 (blk2 m c t) (blk3 m c t) (blk4 m c t) (ix2 p q) = _
  refine (pay5_apply _ _ _ _ _ p q).trans ?_
  simp only [scr_last_agg m c t h3, scr_last_deg m c t h3, blk2_apply, blk3_apply, blk4_apply]
  rfl

end Cert.KernelIdeal.Val

end
-- ==== Proof.Val.Final.lean ====
/-
  From blocks to the array.  The result's block is written back exactly at the last column tile of each row tile,
  point 4·i + 3 writing rows 512·i … 512·i + 511; these 32 blocks tile the array, and each is the layer's result
  restricted to its rows, so after the run the result array is the layer's result.
-/
import proofs.«127362_j72773925863488_1_alg».proof.Proof.FrI.Data
import proofs.«127362_j72773925863488_1_alg».proof.Proof.Val.Spec
import proofs.«127362_j72773925863488_1_alg».proof.Proof.Val.Acc
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ)

/-- The result window's block index at point t: row tile t / 4, the only column block. -/
private theorem idx_out : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- What a last column tile writes back is the layer's result read through the block's place in the array. -/
private theorem flushed_out (c : Dev nD) (t : Fin cfg0.N) (h3 : t.val % 4 = 3) :
    (dats m 0 c).flushed 5 t
      = ((cfg0.win 5).blk t).view.read (Elt Ideal) (Cert.Sage.G (hArr m c) (adjArr m c) (wsArr m c) (wnArr m c)) := by
  show (cfg0.win 5).cut (grid0.coords t) ((dats m 0 c).after 5 t) = _
  rw [after0_5]
  funext j
  obtain ⟨p, q, rfl⟩ : ∃ (p : Fin 512) (q : Fin 128), j = ix2 p q := ⟨j 0, j 1, eq_ix2 j⟩
  show outv m c t (ix2 p q)
    = Cert.Sage.G (hArr m c) (adjArr m c) (wsArr m c) (wnArr m c) (((cfg0.win 5).blk t).view.emb (ix2 p q))
  have he : ((cfg0.win 5).blk t).view.emb (ix2 p q) = ix2 (rowOf t p) q := by
    obtain ⟨e0, e1⟩ := idx_out t
    funext a; apply Fin.ext
    match a with
    | ⟨0, _⟩ => show win0_5.index t (0 : Fin 2) * 512 + 1 * p.val = 512 * (t.val / 4) + p.val; omega
    | ⟨1, _⟩ => show win0_5.index t (1 : Fin 2) * 128 + 1 * q.val = q.val; omega
  rw [he, Cert.Sage.G_apply]
  exact outv_apply m c t h3 p q

/-- An index of the array is in point t's block iff each coordinate is in the block's range on its axis. -/
private theorem mem_blk_out (t : Fin cfg0.N) (i : S16384x128.Idx) :
    i ∈ ((cfg0.win 5).blk t).view.set
      ↔ ∀ a : Fin 2, win0_5.index t a * S512x128.size a ≤ (i a).val
          ∧ (i a).val < win0_5.index t a * S512x128.size a + S512x128.size a := by
  show i ∈ ((View.whole main_v0).slice (win0_5.rect t)).set ↔ _
  rw [View.set_slice_whole, Rect.mem_set_unit]
  exact Iff.rfl

/-- Row r of the array lies in the block written back at the last column tile of row tile r / 512. -/
private theorem covered_out (i : S16384x128.Idx) :
    ∃ t : Fin cfg0.N, (cfg0.win 5).flush t = true ∧ i ∈ ((cfg0.win 5).blk t).view.set := by
  have hN : cfg0.N = 128 := N_0
  have hi0 : (i 0).val < 16384 := (i 0).isLt
  have hi1 : (i 1).val < 128 := (i 1).isLt
  obtain ⟨t, ht⟩ : ∃ t : Fin cfg0.N, t.val = 4 * ((i 0).val / 512) + 3 := ⟨⟨4 * ((i 0).val / 512) + 3, by omega⟩, rfl⟩
  refine ⟨t, (flush0_5 t).mpr (by omega), ?_⟩
  rw [mem_blk_out]
  obtain ⟨e0, e1⟩ := idx_out t
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 128 ≤ (i 1).val ∧ (i 1).val < win0_5.index t (1 : Fin 2) * 128 + 128
    omega

/-- The result array after the run, as the proof data's write-backs compute it, is the layer's result. -/
theorem final (c : Dev nD) :
    (dats m 0 c).arrAt 5 cfg0.N = Cert.Sage.G (hArr m c) (adjArr m c) (wsArr m c) (wnArr m c) := by
  exact (dats m 0 c).arrAt_eq_of_cover 5 _ (fun t hf => flushed_out m c t ((flush0_5 t).mp hf)) fun i => covered_out i

end Cert.KernelIdeal.Val

end
-- ==== Proof.Val.RefIsG.lean ====
/-
  The reference computes the layer: its stages read at one entry are the layer's formula term by term — the row sum
  from the zero constant, the clamp as a maximum against the broadcast one, the two contractions and the quotient.
-/
import proofs.«127362_j72773925863488_1_alg».proof.Proof.Gen.ReferenceIdeal.Read
import proofs.«127362_j72773925863488_1_alg».proof.Proof.Val.Spec
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The reference's result stage, at the extended reals, is the layer's function of the four arguments. -/
theorem ref_eq (x0 : (⟨S16384x128, .f32⟩ : BufTy).Contents (Elt Ideal)) (x1 : (⟨S16384x16384, .f32⟩ : BufTy).Contents (Elt Ideal))
    (x2 x3 : (⟨S128x128, .f32⟩ : BufTy).Contents (Elt Ideal)) :
    val_main_v8 (F := Ideal) x0 x1 x2 x3 = Cert.Sage.G x0 x1 x2 x3 := by
  funext i
  obtain ⟨p, q, rfl⟩ : ∃ (p : Fin 16384) (q : Fin 128), i = ix2 p q := ⟨i 0, i 1, eq_ix2 i⟩
  have e6l : ∀ k : Fin 128, lidx_main_v6 (ix2 p q) k = ix2 p k := fun k =>
    funext fun a => Fin.ext (by match a with | ⟨0, _⟩ => rfl | ⟨1, _⟩ => rfl)
  have e6r : ∀ k : Fin 128, ridx_main_v6 (ix2 p q) k = ix2 k q := fun k =>
    funext fun a => Fin.ext (by match a with | ⟨0, _⟩ => rfl | ⟨1, _⟩ => rfl)
  have e7l : ∀ k : Fin 128, lidx_main_v7 (ix2 p q) k = ix2 p k := fun k =>
    funext fun a => Fin.ext (by match a with | ⟨0, _⟩ => rfl | ⟨1, _⟩ => rfl)
  have e7r : ∀ k : Fin 128, ridx_main_v7 (ix2 p q) k = ix2 k q := fun k =>
    funext fun a => Fin.ext (by match a with | ⟨0, _⟩ => rfl | ⟨1, _⟩ => rfl)
  have e3l : ∀ (k : Fin 128) (j : Fin 16384), lidx_main_v3 (ix2 p k) j = ix2 p j := fun k j =>
    funext fun a => Fin.ext (by match a with | ⟨0, _⟩ => rfl | ⟨1, _⟩ => rfl)
  have e3r : ∀ (k : Fin 128) (j : Fin 16384), ridx_main_v3 (ix2 p k) j = ix2 j k := fun k j =>
    funext fun a => Fin.ext (by match a with | ⟨0, _⟩ => rfl | ⟨1, _⟩ => rfl)
  have e0 : ∀ (k : Fin 128) (j : Fin 16384),
      idx_main_v0 (idx_main_v1 (idx_main_v4 (ix2 p k))) j = ix2 p j := fun k j =>
    funext fun a => Fin.ext (by match a with | ⟨0, _⟩ => rfl | ⟨1, _⟩ => rfl)
  rw [val_main_v8_apply, val_main_v6_apply, val_main_v7_apply]
  simp only [val_main_v5_apply, val_main_v3_apply, val_main_v4_apply, val_main_v2_apply,
    val_main_call0_v1_apply, val_main_call0_v0_apply, val_main_cst_0_apply, val_main_v1_apply,
    val_main_v0_apply, val_main_cst_apply]
  simp only [e6l, e6r, e7l, e7r, e3l, e3r, e0, Ideal.addf_def, Ideal.mulf_def, Ideal.hostDivf_def,
    Ideal.maximumf_def, Ideal.ofBits_def, Ideal.ofBits_zero_f32, zero_add]
  rw [Cert.Sage.G_apply]
  unfold Cert.Sage.layer Cert.Sage.agg Cert.Sage.deg
  rw [max_comm (Ideal.ofBits .f32 0x3F800000#32)]

end Cert.ReferenceIdeal.RefValue

end
-- ==== Proof.lean ====
/-
  A mean-aggregation graph layer: result = h · W_self + ((adj · h) / max(rowsum(adj), 1)) · W_neigh, over 16384 nodes
  with 128 features.

  The kernel walks a 32 × 4 grid of adjacency tiles (512 rows by 4096 columns).  Along a row tile's four column
  tiles it accumulates the tile products adj_tile · h_block and the tiles' row sums, from zero at the first; at the
  fourth it divides the aggregate by the clamped degree, applies the two projections and stores the block of 512
  result rows.  The feature array is read through two windows (the neighbours' rows and the row tile's own rows), so
  its share is dealt in halves.  The reference computes the same with one whole product and one whole row sum.

  Over the extended reals the two agree entry by entry: a sum over 16384 columns is the sum of its four tile sums
  added one after the other onto zero (addition is commutative and associative with 0 neutral; no finiteness of the
  inputs is used), a change of float format is the identity, and the clamp, the quotient and the projections are the
  same expressions on both sides.  The idealization rewrote nothing, so its ledger is empty.
-/
import proofs.«127362_j72773925863488_1_alg».proof.Defs
import proofs.«127362_j72773925863488_1_alg».proof.Proof.Gen.Kernel
import proofs.«127362_j72773925863488_1_alg».proof.Proof.Gen.KernelIdeal
import proofs.«127362_j72773925863488_1_alg».proof.Proof.Gen.ReferenceIdeal
import proofs.«127362_j72773925863488_1_alg».proof.Proof.Gen.Pre_finite_inputs
import proofs.«127362_j72773925863488_1_alg».proof.Proof.Gen.ReferenceIdeal.Run
import proofs.«127362_j72773925863488_1_alg».proof.Proof.Gen.ReferenceIdeal.Read
import proofs.«127362_j72773925863488_1_alg».proof.Proof.FrB.Frame
import proofs.«127362_j72773925863488_1_alg».proof.Proof.FrI.Frame
import proofs.«127362_j72773925863488_1_alg».proof.Proof.Val.Final
import proofs.«127362_j72773925863488_1_alg».proof.Proof.Val.RefIsG
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Fr.frame m ρ

/-- So does the kernel read over the extended reals. -/
theorem frame_ki : Cert.frame_KernelIdeal := fun m ρ _ => Cert.KernelIdeal.Fr.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the layer's result of the (agreeing) arguments. -/
theorem algebraic : Cert.algebraic_KernelIdeal_ReferenceIdeal := by
  intro m ρ m' ρ' _ hagree
  refine ⟨fun c => Cert.Sage.G (Cert.KernelIdeal.Val.hArr m c) (Cert.KernelIdeal.Val.adjArr m c) (Cert.KernelIdeal.Val.wsArr m c) (Cert.KernelIdeal.Val.wnArr m c), ?_, ?_⟩
  · exact (θ_run (Cert.KernelIdeal.defs (F := Ideal)) _ _).mono (fun r h c => ⟨(h c).1.trans (Cert.KernelIdeal.Val.final m c), (h c).2⟩)
      (Cert.KernelIdeal.Fr.run_value (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v8_eq _ _ _ _).trans (Cert.ReferenceIdeal.RefValue.ref_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
